-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S64x512 : Shape := ⟨2, ![64, 512]⟩
abbrev S512 : Shape := ⟨1, ![512]⟩
abbrev S512x128 : Shape := ⟨2, ![512, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_

variable [Facts]

def fn_part2 {F : FTy → Type} [FloatOps F] (main_arg8 : FVec F S512x128 .f32) (main_arg9 : FVec F S128 .f32) (main_v33 : IVec S_ 1) : IVec S_ 1 :=
  let main_v34 : FVec F S512x128 .f32 := Host.absf main_arg8
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S64x512 .f32) (main_arg7 : FVec F S512 .f32) (main_arg8 : FVec F S512x128 .f32) (main_arg9 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x512 .f32 := Host.absf main_arg6
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1000000 32) (main_arg2 : FVec F S64x128 .f32) (main_arg3 : FVec F S128 .f32) (main_arg4 : FVec F S64x128 .f32) (main_arg5 : FVec F S128 .f32) (main_arg6 : FVec F S64x512 .f32) (main_arg7 : FVec F S512 .f32) (main_arg8 : FVec F S512x128 .f32) (main_arg9 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S64x512 : Shape := ⟨2, ![64, 512]⟩
abbrev S512 : Shape := ⟨1, ![512]⟩
abbrev S512x128 : Shape := ⟨2, ![512, 128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x1 : Shape := ⟨2, ![100000, 1]⟩
abbrev S100000x128 : Shape := ⟨2, ![100000, 128]⟩
abbrev S2000x64 : Shape := ⟨2, ![2000, 64]⟩
abbrev S2000x128 : Shape := ⟨2, ![2000, 128]⟩
abbrev S1x128 : Shape := ⟨2, ![1, 128]⟩
abbrev S2000x512 : Shape := ⟨2, ![2000, 512]⟩
abbrev S1x512 : Shape := ⟨2, ![1, 512]⟩

abbrev nBuf : Space → Nat
  | .hbm => 65
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S64x512, .f32⟩
  | .hbm, ⟨7, _⟩ => ⟨S512, .f32⟩
  | .hbm, ⟨8, _⟩ => ⟨S512x128, .f32⟩
  | .hbm, ⟨9, _⟩ => ⟨S128, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .f32⟩
  | .hbm, ⟨24, _⟩ => ⟨S100000x64, .f32⟩
  | .hbm, ⟨25, _⟩ => ⟨S1000000x1, .i32⟩
  | .hbm, ⟨26, _⟩ => ⟨S100000x64, .f32⟩
  | .hbm, ⟨27, _⟩ => ⟨S_, .f32⟩
  | .hbm, ⟨28, _⟩ => ⟨S1000000x1, .f32⟩
  | .hbm, ⟨29, _⟩ => ⟨S_, .f32⟩
  | .hbm, ⟨30, _⟩ => ⟨S100000x1, .f32⟩
  | .hbm, ⟨31, _⟩ => ⟨S1000000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x64, .f32⟩
  | .hbm, ⟨47, _⟩ => ⟨S_, .f32⟩
  | .hbm, ⟨48, _⟩ => ⟨S100000x64, .f32⟩
  | .hbm, ⟨49, _⟩ => ⟨S1000000x1, .i32⟩
  | .hbm, ⟨50, _⟩ => ⟨S100000x64, .f32⟩
  | .hbm, ⟨51, _⟩ => ⟨S_, .f32⟩
  | .hbm, ⟨52, _⟩ => ⟨S1000000x1, .f32⟩
  | .hbm, ⟨53, _⟩ => ⟨S_, .f32⟩
  | .hbm, ⟨54, _⟩ => ⟨S100000x1, .f32⟩
  | .hbm, ⟨55, _⟩ => ⟨S1000000x1, .i32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x128, .f32⟩
  | .hbm, ⟨63, _⟩ => ⟨S100000x128, .f32⟩
  | .hbm, ⟨64, _⟩ => ⟨S100000x128, .f32⟩
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x64, .f32⟩
  | .local _ .vmem, ⟨7, _⟩ => ⟨S2000x64, .f32⟩
  | .local _ .vmem, ⟨8, _⟩ => ⟨S64x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x64, .f32⟩
  | .local _ .vmem, ⟨13, _⟩ => ⟨S2000x64, .f32⟩
  | .local _ .vmem, ⟨14, _⟩ => ⟨S64x512, .f32⟩
  | .local _ .vmem, ⟨15, _⟩ => ⟨S512, .f32⟩
  | .local _ .vmem, ⟨16, _⟩ => ⟨S512x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S64x512_S64x512_0_0 : ∀ a, (![0, 0] : Fin 2 → Nat) a + S64x512.size a ≤ S64x512.size a
  h_S64x512 : 0 < S64x512.numel
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S2000x64_S64x128_S2000x128_1_0_0_1_n_n_wf : DotDims.WF S2000x64 S64x128 S2000x128 [1] [0] [0] [1] [] []
  dot_S2000x64_S64x512_S2000x512_1_0_0_1_n_n_wf : DotDims.WF S2000x64 S64x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x512.size a ≤ S64x512.size a
  hwx2_1 : ∀ i : grid2.Coords, EltTy.bits .f32 = 32 ∨ (Rect.block (s := S64x512) S64x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S512x128.size a
  hwx2_3 : ∀ i : grid2.Coords, EltTy.bits .f32 = 32 ∨ (Rect.block (s := S512x128) S512x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x64_S64x512_S2000x512_1_0_0_1_n_n : DotDims S2000x64 S64x512 S2000x512 where
  lhsContracting := [1]
  rhsContracting := [0]
  lhsNonContracting := [0]
  rhsNonContracting := [1]
  lhsBatch := []
  rhsBatch := []
  wf := dot_S2000x64_S64x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v21) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S512x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S64x512 : Shape := ⟨2, ![64, 512]⟩
abbrev S512 : Shape := ⟨1, ![512]⟩
abbrev S512x128 : Shape := ⟨2, ![512, 128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x1 : Shape := ⟨2, ![100000, 1]⟩
abbrev S100000x128 : Shape := ⟨2, ![100000, 128]⟩
abbrev S1x128 : Shape := ⟨2, ![1, 128]⟩
abbrev S100000x512 : Shape := ⟨2, ![100000, 512]⟩
abbrev S1x512 : Shape := ⟨2, ![1, 512]⟩

abbrev nBuf : Space → Nat
  | .hbm => 138
  | .vmem => 0
  | .smem => 0
  | _ => 0

abbrev hbmTy0_0 (i : Nat) : BufTy := match i % 128 with
  | 0 => ⟨S100000x64, .f32⟩
  | 1 => ⟨S2x1000000, .i32⟩
  | 2 => ⟨S64x128, .f32⟩
  | 3 => ⟨S128, .f32⟩
  | 4 => ⟨S64x128, .f32⟩
  | 5 => ⟨S128, .f32⟩
  | 6 => ⟨S64x512, .f32⟩
  | 7 => ⟨S512, .f32⟩
  | 8 => ⟨S512x128, .f32⟩
  | 9 => ⟨S128, .f32⟩
  | 10 => ⟨S1x1000000, .i32⟩
  | 11 => ⟨S1000000, .i32⟩
  | 12 => ⟨S1x1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S_, .f32⟩
  | 24 => ⟨S100000x64, .f32⟩
  | 25 => ⟨S1000000x1, .i32⟩
  | 26 => ⟨S100000x64, .f32⟩
  | 27 => ⟨S_, .f32⟩
  | 28 => ⟨S1000000x1, .f32⟩
  | 29 => ⟨S_, .f32⟩
  | 30 => ⟨S100000x1, .f32⟩
  | 31 => ⟨S1000000x1, .i32⟩
  | 32 => ⟨S100000x1, .f32⟩
  | 33 => ⟨S_, .f32⟩
  | 34 => ⟨S100000x1, .f32⟩
  | 35 => ⟨S100000x1, .f32⟩
  | 36 => ⟨S100000x64, .f32⟩
  | 37 => ⟨S100000x64, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .i1⟩
  | 45 => ⟨S_, .f32⟩
  | 46 => ⟨S100000x128, .f32⟩
  | 47 => ⟨S100000x128, .i1⟩
  | 48 => ⟨S_, .f32⟩
  | 49 => ⟨S_, .f32⟩
  | 50 => ⟨S100000x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S100000x128, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x64, .f32⟩
  | 66 => ⟨S_, .f32⟩
  | 67 => ⟨S100000x64, .f32⟩
  | 68 => ⟨S1000000x1, .i32⟩
  | 69 => ⟨S100000x64, .f32⟩
  | 70 => ⟨S_, .f32⟩
  | 71 => ⟨S1000000x1, .f32⟩
  | 72 => ⟨S_, .f32⟩
  | 73 => ⟨S100000x1, .f32⟩
  | 74 => ⟨S1000000x1, .i32⟩
  | 75 => ⟨S100000x1, .f32⟩
  | 76 => ⟨S_, .f32⟩
  | 77 => ⟨S100000x1, .f32⟩
  | 78 => ⟨S100000x1, .f32⟩
  | 79 => ⟨S100000x64, .f32⟩
  | 80 => ⟨S100000x64, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .i1⟩
  | 88 => ⟨S_, .f32⟩
  | 89 => ⟨S100000x128, .f32⟩
  | 90 => ⟨S100000x128, .i1⟩
  | 91 => ⟨S_, .f32⟩
  | 92 => ⟨S_, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S100000x512, .f32⟩
  | 101 => ⟨S1x512, .f32⟩
  | 102 => ⟨S100000x512, .f32⟩
  | 103 => ⟨S100000x512, .f32⟩
  | 104 => ⟨S_, .f32⟩
  | 105 => ⟨S100000x512, .f32⟩
  | 106 => ⟨S100000x512, .i1⟩
  | 107 => ⟨S_, .f32⟩
  | 108 => ⟨S100000x512, .f32⟩
  | 109 => ⟨S100000x512, .i1⟩
  | 110 => ⟨S_, .f32⟩
  | 111 => ⟨S_, .f32⟩
  | 112 => ⟨S100000x512, .f32⟩
  | 113 => ⟨S100000x512, .f32⟩
  | 114 => ⟨S100000x512, .f32⟩
  | 115 => ⟨S_, .f32⟩
  | 116 => ⟨S100000x512, .f32⟩
  | 117 => ⟨S100000x512, .f32⟩
  | 118 => ⟨S100000x512, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .i1⟩
  | 126 => ⟨S_, .f32⟩
  | 127 => ⟨S100000x128, .f32⟩
  | _ => ⟨S100000x64, .f32⟩

abbrev hbmTy0_1 (i : Nat) : BufTy := match i % 128 with
  | 0 => ⟨S100000x128, .i1⟩
  | 1 => ⟨S_, .f32⟩
  | 2 => ⟨S_, .f32⟩
  | 3 => ⟨S100000x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S100000x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_cst_1 : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_v4 : Ref sig .tc := ⟨.hbm, 51, rfl⟩
abbrev main_call0_v5 : Ref sig .tc := ⟨.hbm, 52, rfl⟩
abbrev main_call0_cst_2 : Ref sig .tc := ⟨.hbm, 53, rfl⟩
abbrev main_call0_v6 : Ref sig .tc := ⟨.hbm, 54, rfl⟩
abbrev main_call0_v7 : Ref sig .tc := ⟨.hbm, 55, rfl⟩
abbrev main_v26 : Ref sig .tc := ⟨.hbm, 56, rfl⟩
abbrev main_c_4 : Ref sig .tc := ⟨.hbm, 57, rfl⟩
abbrev main_v27 : Ref sig .tc := ⟨.hbm, 58, rfl⟩
abbrev main_v28 : Ref sig .tc := ⟨.hbm, 59, rfl⟩
abbrev main_c_5 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_7 : Ref sig .tc := ⟨.hbm, 70, rfl⟩
abbrev main_v37 : Ref sig .tc := ⟨.hbm, 71, rfl⟩
abbrev main_cst_8 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_9 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_cst_1 : Ref sig .tc := ⟨.hbm, 91, rfl⟩
abbrev main_call1_call0_v0 : Ref sig .tc := ⟨.hbm, 92, rfl⟩
abbrev main_call1_call0_v1 : Ref sig .tc := ⟨.hbm, 93, rfl⟩
abbrev main_call1_v4 : Ref sig .tc := ⟨.hbm, 94, rfl⟩
abbrev main_call1_v5 : Ref sig .tc := ⟨.hbm, 95, rfl⟩
abbrev main_call1_cst_2 : Ref sig .tc := ⟨.hbm, 96, rfl⟩
abbrev main_call1_v6 : Ref sig .tc := ⟨.hbm, 97, rfl⟩
abbrev main_call1_v7 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_cst_0 : Ref sig .tc := ⟨.hbm, 107, rfl⟩
abbrev main_call2_v2 : Ref sig .tc := ⟨.hbm, 108, rfl⟩
abbrev main_call2_v3 : Ref sig .tc := ⟨.hbm, 109, rfl⟩
abbrev main_call2_cst_1 : Ref sig .tc := ⟨.hbm, 110, rfl⟩
abbrev main_call2_call0_v0 : Ref sig .tc := ⟨.hbm, 111, rfl⟩
abbrev main_call2_call0_v1 : Ref sig .tc := ⟨.hbm, 112, rfl⟩
abbrev main_call2_v4 : Ref sig .tc := ⟨.hbm, 113, rfl⟩
abbrev main_call2_v5 : Ref sig .tc := ⟨.hbm, 114, rfl⟩
abbrev main_call2_cst_2 : Ref sig .tc := ⟨.hbm, 115, rfl⟩
abbrev main_call2_v6 : Ref sig .tc := ⟨.hbm, 116, rfl⟩
abbrev main_call2_v7 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_call3_cst : Ref sig .tc := ⟨.hbm, 123, rfl⟩
abbrev main_call3_v0 : Ref sig .tc := ⟨.hbm, 124, rfl⟩
abbrev main_call3_v1 : Ref sig .tc := ⟨.hbm, 125, rfl⟩
abbrev main_call3_cst_0 : Ref sig .tc := ⟨.hbm, 126, rfl⟩
abbrev main_call3_v2 : Ref sig .tc := ⟨.hbm, 127, rfl⟩
abbrev main_call3_v3 : Ref sig .tc := ⟨.hbm, 128, rfl⟩
abbrev main_call3_cst_1 : Ref sig .tc := ⟨.hbm, 129, rfl⟩
abbrev main_call3_call0_v0 : Ref sig .tc := ⟨.hbm, 130, rfl⟩
abbrev main_call3_call0_v1 : Ref sig .tc := ⟨.hbm, 131, rfl⟩
abbrev main_call3_v4 : Ref sig .tc := ⟨.hbm, 132, rfl⟩
abbrev main_call3_v5 : Ref sig .tc := ⟨.hbm, 133, rfl⟩
abbrev main_call3_cst_2 : Ref sig .tc := ⟨.hbm, 134, rfl⟩
abbrev main_call3_v6 : Ref sig .tc := ⟨.hbm, 135, rfl⟩
abbrev main_call3_v7 : Ref sig .tc := ⟨.hbm, 136, rfl⟩
abbrev main_v59 : Ref sig .tc := ⟨.hbm, 137, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S100000x64_S64x128_S100000x128_1_0_0_1_n_n_wf : DotDims.WF S100000x64 S64x128 S100000x128 [1] [0] [0] [1] [] []
  dot_S100000x64_S64x512_S100000x512_1_0_0_1_n_n_wf : DotDims.WF S100000x64 S64x512 S100000x512 [1] [0] [0] [1] [] []
  dot_S100000x512_S512x128_S100000x128_1_0_0_1_n_n_wf : DotDims.WF S100000x512 S512x128 S100000x128 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x64_S64x512_S100000x512_1_0_0_1_n_n : DotDims S100000x64 S64x512 S100000x512 where
  lhsContracting := [1]
  rhsContracting := [0]
  lhsNonContracting := [0]
  rhsNonContracting := [1]
  lhsBatch := []
  rhsBatch := []
  wf := dot_S100000x64_S64x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf

class Facts : Prop extends Facts₀ where

variable [Facts]
-- ==== Proof.Aggr.lean ====
/-
  Mean aggregation of node features over an edge list, as both programs' host code computes it — one term for both.

  For a gather row `g` and a scatter row `s` of the edge list (each of length 1000000, entries read as signed
  32-bit words): a negative gather index is wrapped by adding the node count, row `g e` of `x` is added into row
  `s e` of a zero array for every edge `e`, the same is done with a column of ones to count each node's edges, and
  the sums are divided by that count or by one, whichever is larger. Nothing here is opened by the proof: the two
  programs apply this same function to the same arguments, and that is all that is used of it.
-/
import Idealize.ShloMosaic.PureOps.Ideal

noncomputable section

namespace Cert.Aggr

open Idealize.ShloMosaic

variable {F : FTy → Type} [FloatOps F]

/-- Node features, [100000, 64]. -/
abbrev SX : Shape := ⟨2, ![100000, 64]⟩
/-- The edge list, [2, 1000000], and one row of it kept two-dimensional. -/
abbrev SE : Shape := ⟨2, ![2, 1000000]⟩
abbrev SE1 : Shape := ⟨2, ![1, 1000000]⟩
/-- One row of the edge list, flat, and as a column of index vectors. -/
abbrev SI : Shape := ⟨1, ![1000000]⟩
abbrev SI1 : Shape := ⟨2, ![1000000, 1]⟩
/-- A scalar. -/
abbrev S0 : Shape := ⟨0, ![]⟩
/-- One feature row per edge, [1000000, 64], and one count per node, [100000, 1]. -/
abbrev SU : Shape := ⟨2, ![1000000, 64]⟩
abbrev SC : Shape := ⟨2, ![100000, 1]⟩

theorem gather_wf : GatherDims.WF SX SI1 SU [1] [0] [] [0] [] 1 ![1, 64] := by decide
theorem scatter_rows_wf : ScatterDims.WF SX SI1 SU [1] [0] [0] 1 := by decide
theorem scatter_count_wf : ScatterDims.WF SC SI1 SI1 [1] [0] [0] 1 := by decide

/-- Take whole rows of `x` at a column of row indices. -/
def gatherRows : GatherDims SX SI1 SU where
  offsetDims := [1]
  collapsedSliceDims := [0]
  operandBatchingDims := []
  startIndicesBatchingDims := []
  startIndexMap := [0]
  indexVectorDim := 1
  sliceSizes := ![1, 64]
  wf := gather_wf

/-- Add whole rows into the rows a column of indices names. -/
def scatterRows : ScatterDims SX SI1 SU where
  updateWindowDims := [1]
  insertedWindowDims := [0]
  scatterDimsToOperandDims := [0]
  indexVectorDim := 1
  wf := scatter_rows_wf

/-- The same for one-column rows (the edge counts). -/
def scatterCount : ScatterDims SC SI1 SI1 where
  updateWindowDims := [1]
  insertedWindowDims := [0]
  scatterDimsToOperandDims := [0]
  indexVectorDim := 1
  wf := scatter_count_wf

/-- Row 0 of the edge list as a flat vector. -/
def row0 (e : IVec SE 32) : IVec SI 32 :=
  shapeCast SI (extractStridedSlice SE1 ![0, 0] e (by decide)) (by decide)

/-- Row 1 of the edge list as a flat vector. -/
def row1 (e : IVec SE 32) : IVec SI 32 :=
  shapeCast SI (extractStridedSlice SE1 ![1, 0] e (by decide)) (by decide)

/-- A negative index counts from the end: add the node count to it. -/
def wrap (g : IVec SI 32) : IVec SI 32 :=
  select (cmpi .slt g (broadcastInDim SI ![] (by decide) (constantI S0 32 0#32)))
    (addi g (broadcastInDim SI ![] (by decide) (constantI S0 32 100000#32))) g

/-- A flat index vector as a column of one-entry index vectors. -/
def col (g : IVec SI 32) : IVec SI1 32 := broadcastInDim SI1 ![0] (by decide) g

/-- The mean over each node's incoming edges (by scatter row `s`) of the features at the edges' other ends (by
    gather row `g`); a node with no edge divides by one. -/
def meanAggr (x : FVec F SX .f32) (g s : IVec SI 32) : FVec F SX .f32 :=
  Host.divf
    (Host.scatterAdd scatterRows (broadcastInDim SX ![] (by decide) (constant S0 .f32 0x00000000#32)) (col s)
      (Host.gather gatherRows x (col (wrap g))))
    (broadcastInDim SX ![0, 1] (by decide)
      (maximumf
        (Host.scatterAdd scatterCount (broadcastInDim SC ![] (by decide) (constant S0 .f32 0x00000000#32)) (col s)
          (broadcastInDim SI1 ![] (by decide) (constant S0 .f32 0x3F800000#32)))
        (broadcastInDim SC ![] (by decide) (constant S0 .f32 0x3F800000#32))))

end Cert.Aggr

end
-- ==== Proof.KHost.lean ====
/-
  What the kernel's regions find in their input arrays.

  Before the first region @main runs the host operations of the mean aggregation twice: region 0's first input is
  the aggregation with the edge list's row 0 as gather row and row 1 as scatter row, region 1's first input the same
  with the rows exchanged. Every other input of a region is an argument array, which no host operation and no
  region writes, so the region finds it as launched; an output array of an earlier region is not written by a later
  one either.
-/
import proofs.«155423_j28054726378292_1_alg».proof.Proof.Gen.KernelIdeal.Frame
import proofs.«155423_j28054726378292_1_alg».proof.Proof.Aggr
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- Region 0's first input: the mean aggregation, gathered at row 0 of the edge list and summed at row 1. -/
theorem W1_v21 (c : Dev nD) :
    W1 m ρ c (Proc.devRef .tc main_v21)
      = Cert.Aggr.meanAggr (m ((c : Thread nD τ).loc main_arg0)) (Cert.Aggr.row0 (m ((c : Thread nD τ).loc main_arg1)))
          (Cert.Aggr.row1 (m ((c : Thread nD τ).loc main_arg1))) := by
  show StableHlo.after hostOps0 (W0 m ρ c) (Proc.devRef .tc main_v21) = _
  after_results_simp
  rfl

/-- Region 1's first input: the same with the rows exchanged. -/
theorem W1_v39 (c : Dev nD) :
    W1 m ρ c (Proc.devRef .tc main_v39)
      = Cert.Aggr.meanAggr (m ((c : Thread nD τ).loc main_arg0)) (Cert.Aggr.row1 (m ((c : Thread nD τ).loc main_arg1)))
          (Cert.Aggr.row0 (m ((c : Thread nD τ).loc main_arg1))) := by
  show StableHlo.after hostOps0 (W0 m ρ c) (Proc.devRef .tc main_v39) = _
  after_results_simp
  rfl

/-- No host operation before the regions writes the buffer `b` (decided reference by reference). -/
local macro "no_host_write" : tactic =>
  `(tactic| (refine List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ### Region 0 finds its weight and bias as launched -/

theorem W1_arg2 (c : Dev nD) : W1 m ρ c (Proc.devRef .tc main_arg2) = m ((c : Thread nD τ).loc main_arg2) :=
  (StableHlo.after_of_forall_not_mem (b := Proc.devRef .tc main_arg2) _ _ (by no_host_write)).trans rfl
theorem W1_arg3 (c : Dev nD) : W1 m ρ c (Proc.devRef .tc main_arg3) = m ((c : Thread nD τ).loc main_arg3) :=
  (StableHlo.after_of_forall_not_mem (b := Proc.devRef .tc main_arg3) _ _ (by no_host_write)).trans rfl

/-! ### Region 1 finds its inputs as region 0 did not touch them -/

theorem W2_v39 (c : Dev nD) : W2 m ρ c (Proc.devRef .tc main_v39) = W1 m ρ c (Proc.devRef .tc main_v39) :=
  W2_of_ne m ρ c main_v39 (by decide)
theorem W2_arg4 (c : Dev nD) : W2 m ρ c (Proc.devRef .tc main_arg4) = m ((c : Thread nD τ).loc main_arg4) :=
  (W2_of_ne m ρ c main_arg4 (by decide)).trans
    ((StableHlo.after_of_forall_not_mem (b := Proc.devRef .tc main_arg4) _ _ (by no_host_write)).trans rfl)
theorem W2_arg5 (c : Dev nD) : W2 m ρ c (Proc.devRef .tc main_arg5) = m ((c : Thread nD τ).loc main_arg5) :=
  (W2_of_ne m ρ c main_arg5 (by decide)).trans
    ((StableHlo.after_of_forall_not_mem (b := Proc.devRef .tc main_arg5) _ _ (by no_host_write)).trans rfl)

/-! ### Region 2 finds the node features and its four parameters as launched -/

theorem W3_arg0 (c : Dev nD) : W3 m ρ c (Proc.devRef .tc main_arg0) = m ((c : Thread nD τ).loc main_arg0) :=
  (W3_of_ne m ρ c main_arg0 (by decide)).trans ((W2_of_ne m ρ c main_arg0 (by decide)).trans
    ((StableHlo.after_of_forall_not_mem (b := Proc.devRef .tc main_arg0) _ _ (by no_host_write)).trans rfl))
theorem W3_arg6 (c : Dev nD) : W3 m ρ c (Proc.devRef .tc main_arg6) = m ((c : Thread nD τ).loc main_arg6) :=
  (W3_of_ne m ρ c main_arg6 (by decide)).trans ((W2_of_ne m ρ c main_arg6 (by decide)).trans
    ((StableHlo.after_of_forall_not_mem (b := Proc.devRef .tc main_arg6) _ _ (by no_host_write)).trans rfl))
theorem W3_arg7 (c : Dev nD) : W3 m ρ c (Proc.devRef .tc main_arg7) = m ((c : Thread nD τ).loc main_arg7) :=
  (W3_of_ne m ρ c main_arg7 (by decide)).trans ((W2_of_ne m ρ c main_arg7 (by decide)).trans
    ((StableHlo.after_of_forall_not_mem (b := Proc.devRef .tc main_arg7) _ _ (by no_host_write)).trans rfl))
theorem W3_arg8 (c : Dev nD) : W3 m ρ c (Proc.devRef .tc main_arg8) = m ((c : Thread nD τ).loc main_arg8) :=
  (W3_of_ne m ρ c main_arg8 (by decide)).trans ((W2_of_ne m ρ c main_arg8 (by decide)).trans
    ((StableHlo.after_of_forall_not_mem (b := Proc.devRef .tc main_arg8) _ _ (by no_host_write)).trans rfl))
theorem W3_arg9 (c : Dev nD) : W3 m ρ c (Proc.devRef .tc main_arg9) = m ((c : Thread nD τ).loc main_arg9) :=
  (W3_of_ne m ρ c main_arg9 (by decide)).trans ((W2_of_ne m ρ c main_arg9 (by decide)).trans
    ((StableHlo.after_of_forall_not_mem (b := Proc.devRef .tc main_arg9) _ _ (by no_host_write)).trans rfl))

/-! ### Each result array is what its own region left: no later region writes it -/

theorem W4_v40 (c : Dev nD) : W4 m ρ c (Proc.devRef .tc main_v40) = (dat0 (V1 m ρ) c).arrAt 3 cfg0.N :=
  (W4_of_ne m ρ c main_v40 (by decide)).trans ((W3_of_ne m ρ c main_v40 (by decide)).trans (W2_arr m ρ c 3))
theorem W4_v41 (c : Dev nD) : W4 m ρ c (Proc.devRef .tc main_v41) = (dat1 (V2 m ρ) c).arrAt 3 cfg1.N :=
  (W4_of_ne m ρ c main_v41 (by decide)).trans (W3_arr m ρ c 3)
theorem W4_v42 (c : Dev nD) : W4 m ρ c (Proc.devRef .tc main_v42) = (dat2 (V3 m ρ) c).arrAt 5 cfg2.N :=
  W4_arr m ρ c 5

end Cert.KernelIdeal.HostValue

end
-- ==== Proof.Spec.lean ====
/-
  What each of the three results is, as a function of the argument arrays, index by index over the extended reals.

  A dense layer followed by ELU: at row r and column j
      linElu A W b (r, j) = elu (∑ k, A (r, k) · W (k, j) + b j),
  where elu y = y for 0 < y and e^y − 1 otherwise. The self branch is two such layers in a row,
      mlp x W1 b1 W2 b2 = linElu (linElu x W1 b1) W2 b2
  (64 → 512 → 128 columns). The neighbour branches apply one layer to the mean-aggregated features.

  The reference spells ELU's other branch as 1 · expm1 y' with y' = 0 where 0 < y and y' = y elsewhere; over the
  extended reals expm1 y = e^y − 1 and 1 · z = z, so that spelling is the same function (`elu_host`). The float
  patterns of 0.0 and 1.0 are the reals 0 and 1 (`elu_bits`, `elu_host_bits`).
-/
import Idealize.ShloMosaic.PureOps.Ideal
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx
open scoped BigOperators

/-- ELU with unit slope: the identity on the positive half line, e^y − 1 elsewhere (at −∞ that is −1). -/
def elu (y : EReal) : EReal := Scalar.select (Ideal.cmp .ogt y 0) y (Ideal.exp y - 1)

/-- One dense layer: row r of `A` against column j of `W`, plus the bias at j. -/
def lin {R K N : Nat} (A : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => (∑ k : Fin K, A (ix2 (n0 := R) (n1 := K) (i 0) k) * W (ix2 (n0 := K) (n1 := N) k (i 1))) + b (ix1 (n := N) (i 1))

/-- A dense layer followed by ELU. -/
def linElu {R K N : Nat} (A : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => elu (lin A W b i)

/-- Two dense layers, each followed by ELU. -/
def mlp {R K H N : Nat} (x : (⟨2, ![R, K]⟩ : Shape).Idx → EReal) (W1 : (⟨2, ![K, H]⟩ : Shape).Idx → EReal)
    (b1 : (⟨1, ![H]⟩ : Shape).Idx → EReal) (W2 : (⟨2, ![H, N]⟩ : Shape).Idx → EReal)
    (b2 : (⟨1, ![N]⟩ : Shape).Idx → EReal) : (⟨2, ![R, N]⟩ : Shape).Idx → EReal :=
  linElu (linElu x W1 b1) W2 b2

theorem lin_apply {R K N : Nat} (A : (⟨2, ![R, K]⟩ : Shape).Idx → EReal) (W : (⟨2, ![K, N]⟩ : Shape).Idx → EReal)
    (b : (⟨1, ![N]⟩ : Shape).Idx → EReal) (r : Fin R) (j : Fin N) :
    lin A W b (ix2 r j) = (∑ k : Fin K, A (ix2 r k) * W (ix2 k j)) + b (ix1 j) := rfl

theorem linElu_apply {R K N : Nat} (A : (⟨2, ![R, K]⟩ : Shape).Idx → EReal) (W : (⟨2, ![K, N]⟩ : Shape).Idx → EReal)
    (b : (⟨1, ![N]⟩ : Shape).Idx → EReal) (r : Fin R) (j : Fin N) :
    linElu A W b (ix2 r j) = elu ((∑ k : Fin K, A (ix2 r k) * W (ix2 k j)) + b (ix1 j)) := rfl

/-- The reference's spelling of ELU: where y is not positive, 1 · (e^{y} − 1) is e^y − 1. -/
theorem elu_host (y : EReal) :
    Scalar.select (Ideal.cmp .ogt y 0) y (1 * (Ideal.exp (Scalar.select (Ideal.cmp .ogt y 0) 0 y) - 1)) = elu y := by
  unfold elu Scalar.select
  by_cases h : Ideal.cmp .ogt y 0 = 1
  · simp only [h, if_true]
  · simp only [h, if_false, one_mul]

/-- The kernel's spelling, with the float patterns of 0.0 and 1.0. -/
theorem elu_bits (y : EReal) :
    Scalar.select (Ideal.cmp .ogt y (Ideal.ofBits .f32 0x00000000#32)) y (Ideal.exp y - Ideal.ofBits .f32 0x3F800000#32) = elu y := by
  rw [Ideal.ofBits_zero_f32, Ideal.ofBits_one_f32]; rfl

/-- The reference's spelling, with the float patterns of 0.0 and 1.0. -/
theorem elu_host_bits (y : EReal) :
    Scalar.select (Ideal.cmp .ogt y (Ideal.ofBits .f32 0x00000000#32)) y
      (Ideal.ofBits .f32 0x3F800000#32 * (Ideal.exp (Scalar.select (Ideal.cmp .ogt y (Ideal.ofBits .f32 0x00000000#32)) (Ideal.ofBits .f32 0x00000000#32) y) - 1)) = elu y := by
  rw [Ideal.ofBits_zero_f32, Ideal.ofBits_one_f32]; exact elu_host y

end Cert.Spec

end
-- ==== Proof.Region0.lean ====
/-
  Region 0: one dense layer followed by ELU, computed block by block over a grid of 50 points.

  At point t the body reads block t of the input A (rows 2000·t … 2000·t + 1999, all 64 columns), the whole weight
  matrix W (64 × 128) and the whole bias b (128 entries), and writes block t of the output (the same rows, all 128
  columns). Entry (p, q) of the written block is  elu (∑ k < 64, A (2000·t + p, k) · W (k, q) + b q):  over the
  extended reals narrowing an operand is the identity, the block product into a zero accumulator is the plain sum of
  products along the contracted axis, the bias cast to one row and broadcast down the block reads b q, and
  "select (y > 0) y (e^y − 1)" with the float patterns of 0.0 and 1.0 is elu y (`Spec.elu_bits`).
  So output entry (r, q) depends only on row r of A, column q of W and b q, all inside what point r / 2000 reads; the
  50 row blocks tile the 100000 rows, hence the array ends as `Spec.linElu A W b`.
-/
import proofs.«155423_j28054726378292_1_alg».proof.Proof.Gen.KernelIdeal.Frame
import proofs.«155423_j28054726378292_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-! ## The body's value at an entry -/

/-- The left operand's index of the block product at output entry j and contraction position k: on the row axis, j's row; -/
theorem lhs_row (j : S2000x128.Idx) (k : dot_S2000x64_S64x128_S2000x128_1_0_0_1_n_n.contr.Idx) :
    (dot_S2000x64_S64x128_S2000x128_1_0_0_1_n_n.lhsIdx j k 0).val = (j 0).val := by
  simp [DotDims.lhsIdx, dot_S2000x64_S64x128_S2000x128_1_0_0_1_n_n]; rfl

/-- on the column axis, k. -/
theorem lhs_col (j : S2000x128.Idx) (k : dot_S2000x64_S64x128_S2000x128_1_0_0_1_n_n.contr.Idx) :
    (dot_S2000x64_S64x128_S2000x128_1_0_0_1_n_n.lhsIdx j k 1).val = (k ⟨0, by decide⟩).val :=
  dot_S2000x64_S64x128_S2000x128_1_0_0_1_n_n.lhsIdx_val_of_single rfl j k

/-- The right operand's index: on the row axis, k; -/
theorem rhs_row (j : S2000x128.Idx) (k : dot_S2000x64_S64x128_S2000x128_1_0_0_1_n_n.contr.Idx) :
    (dot_S2000x64_S64x128_S2000x128_1_0_0_1_n_n.rhsIdx j k 0).val = (k ⟨0, by decide⟩).val :=
  dot_S2000x64_S64x128_S2000x128_1_0_0_1_n_n.rhsIdx_val_of_single rfl j k

/-- on the column axis, j's column. -/
theorem rhs_col (j : S2000x128.Idx) (k : dot_S2000x64_S64x128_S2000x128_1_0_0_1_n_n.contr.Idx) :
    (dot_S2000x64_S64x128_S2000x128_1_0_0_1_n_n.rhsIdx j k 1).val = (j 1).val := by
  simp [DotDims.rhsIdx, dot_S2000x64_S64x128_S2000x128_1_0_0_1_n_n]; rfl

/-- The block product into a zero accumulator, at entry (p, q): row p of the left block against column q of the
    right block, summed over the 64 contracted positions. -/
theorem matmul_entry {φ₁ φ₂ : FTy} (a : FVec Ideal S2000x64 φ₁) (w : FVec Ideal S64x128 φ₂) (p : Fin 2000) (q : Fin 128) :
    matmul dot_S2000x64_S64x128_S2000x128_1_0_0_1_n_n none a w (constant (F := Ideal) S2000x128 .f32 0x00000000#32) (ix2 p q)
      = ∑ k : Fin 64, a (ix2 p k) * w (ix2 k q) := by
  show FloatOps.matmul _ none a w _ (ix2 p q) = _
  rw [Ideal.matmul_constant_zero_apply,
    ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have hl : dot_S2000x64_S64x128_S2000x128_1_0_0_1_n_n.lhsIdx (ix2 p q)
      ((contrEquiv1 dot_S2000x64_S64x128_S2000x128_1_0_0_1_n_n 64 rfl rfl).symm k) = ix2 p k := by
    funext ax; apply Fin.ext
    match ax with
    | ⟨0, _⟩ => exact lhs_row _ _
    | ⟨1, _⟩ => exact (lhs_col _ _).trans hk
  have hr : dot_S2000x64_S64x128_S2000x128_1_0_0_1_n_n.rhsIdx (ix2 p q)
      ((contrEquiv1 dot_S2000x64_S64x128_S2000x128_1_0_0_1_n_n 64 rfl rfl).symm k) = ix2 k q := by
    funext ax; apply Fin.ext
    match ax with
    | ⟨0, _⟩ => exact (rhs_row _ _).trans hk
    | ⟨1, _⟩ => exact rhs_col _ _
  rw [hl, hr]

/-- The bias laid along every row: the one-row cast of the vector, broadcast down the block, reads the vector at
    the column. -/
theorem bias_entry (b : Vec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q) ?_).trans
    (shapeCast_a_1a_apply b shapeCasts_S128_S1x128 0 q)
  intro a
  match a with
  | ⟨0, _⟩ => rfl
  | ⟨1, _⟩ => rfl

/-- The body's payload at entry (p, q) of its block: ELU of row p of the input block against column q of the
    weights, plus the bias at q. -/
theorem pay_entry (x0 : Vec Ideal S2000x64 .f32) (x1 : Vec Ideal S64x128 .f32) (x2 : Vec Ideal S128 .f32)
    (p : Fin 2000) (q : Fin 128) :
    k0_pay1 x0 x1 x2 (ix2 p q) = Cert.Spec.elu ((∑ k : Fin 64, x0 (ix2 p k) * x1 (ix2 k q)) + x2 (ix1 q)) := by
  have hy : addf
        (matmul dot_S2000x64_S64x128_S2000x128_1_0_0_1_n_n none
          (truncf .bf16 (shapeCast S2000x64 x0 shapeCasts_S2000x64_S2000x64) bitsLt_bf16_f32)
          (truncf .bf16 x1 bitsLt_bf16_f32) (constant (F := Ideal) S2000x128 .f32 0x00000000#32))
        (broadcastTo S2000x128 (shapeCast S1x128 x2 shapeCasts_S128_S1x128) broadcasts_S1x128_S2000x128) (ix2 p q)
      = (∑ k : Fin 64, x0 (ix2 p k) * x1 (ix2 k q)) + x2 (ix1 q) := by
    rw [addf_apply, bias_entry, matmul_entry, shapeCast_self]
    rfl
  refine Eq.trans ?_ (Cert.Spec.elu_bits _)
  rw [← hy]
  rfl

/-! ## From the blocks to the array -/

theorem off2_zero : (![0, 0] : Fin 2 → Nat) = fun _ => 0 := funext fun a => by fin_cases a <;> rfl
theorem off1_zero : (![0] : Fin 1 → Nat) = fun _ => 0 := funext fun a => by fin_cases a <;> rfl

/-- The printed index maps, decided over the 50 grid points: the input and the output move down their arrays one block
    of rows per point and stay in column block 0; the weights and the bias stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- WHAT POINT t WRITES BACK is block t of the dense layer with ELU of the three arrays as the region finds them. -/
theorem flushed_eq (c : Dev nD) (t : Fin cfg0.N) :
    (dat0 V c).flushed 3 t = ((cfg0.win 3).blk t).view.read (Elt Ideal)
      (Cert.Spec.linElu (R := 100000) (K := 64) (N := 128) (V c main_v21) (V c main_arg2) (V c main_arg3)) := by
  show (cfg0.win 3).cut (grid0.coords t) ((dat0 V c).after 3 t) = _
  rw [after0_3]
  unfold out0_3
  rw [View.canon_unit_zero off2_zero]
  simp only [View.ld_unit_zero (S := S2000x64) off2_zero, View.ld_unit_zero (S := S64x128) off2_zero,
    View.ld_unit_zero (S := S128) off1_zero]
  obtain ⟨e0, e1, e2, e3, e4, e5, e6⟩ := idx_facts t
  have ht : t.val < 50 := t.isLt
  funext j
  obtain ⟨p, q, rfl⟩ : ∃ (p : Fin 2000) (q : Fin 128), j = ix2 p q := ⟨j 0, j 1, eq_ix2 j⟩
  have hrow : 2000 * t.val + p.val < 100000 := by have := p.isLt; omega
  have hout : ((cfg0.win 3).blk t).view.emb (ix2 p q)
      = ix2 (n0 := 100000) (n1 := 128) ⟨2000 * t.val + p.val, hrow⟩ q := by
    funext a; apply Fin.ext
    match a with
    | ⟨0, _⟩ => show win0_3.index t (0 : Fin 2) * 2000 + 1 * p.val = 2000 * t.val + p.val; omega
    | ⟨1, _⟩ => show win0_3.index t (1 : Fin 2) * 128 + 1 * q.val = q.val; omega
  have hin : ∀ k : Fin 64, ((cfg0.win 0).blk t).view.emb (ix2 p k)
      = ix2 (n0 := 100000) (n1 := 64) ⟨2000 * t.val + p.val, hrow⟩ k := fun k => by
    funext a; apply Fin.ext
    match a with
    | ⟨0, _⟩ => show win0_0.index t (0 : Fin 2) * 2000 + 1 * p.val = 2000 * t.val + p.val; omega
    | ⟨1, _⟩ => show win0_0.index t (1 : Fin 2) * 64 + 1 * k.val = k.val; omega
  have hw : ∀ k : Fin 64, ((cfg0.win 1).blk t).view.emb (ix2 k q) = ix2 (n0 := 64) (n1 := 128) k q := fun k => by
    funext a; apply Fin.ext
    match a with
    | ⟨0, _⟩ => show win0_1.index t (0 : Fin 2) * 64 + 1 * k.val = k.val; omega
    | ⟨1, _⟩ => show win0_1.index t (1 : Fin 2) * 128 + 1 * q.val = q.val; omega
  have hb : ((cfg0.win 2).blk t).view.emb (ix1 q) = ix1 (n := 128) q := by
    funext a; apply Fin.ext
    match a with
    | ⟨0, _⟩ => show win0_2.index t (0 : Fin 1) * 128 + 1 * q.val = q.val; omega
  show k0_pay1 (iblk0 V c 0 t) (iblk0 V c 1 t) (iblk0 V c 2 t) (ix2 p q)
    = Cert.Spec.linElu (R := 100000) (K := 64) (N := 128) (V c main_v21) (V c main_arg2) (V c main_arg3)
        (((cfg0.win 3).blk t).view.emb (ix2 p q))
  rw [hout, Cert.Spec.linElu_apply]
  refine (pay_entry (iblk0 V c 0 t) (iblk0 V c 1 t) (iblk0 V c 2 t) p q).trans (congrArg Cert.Spec.elu ?_)
  have s0 : ∀ k : Fin 64, (iblk0 V c 0 t : Vec Ideal S2000x64 .f32) (ix2 p k)
      = (V c main_v21 : S100000x64.Idx → EReal) (ix2 ⟨2000 * t.val + p.val, hrow⟩ k) := fun k =>
    congrArg (V c main_v21 : S100000x64.Idx → EReal) (hin k)
  have s1 : ∀ k : Fin 64, (iblk0 V c 1 t : Vec Ideal S64x128 .f32) (ix2 k q)
      = (V c main_arg2 : S64x128.Idx → EReal) (ix2 k q) := fun k =>
    congrArg (V c main_arg2 : S64x128.Idx → EReal) (hw k)
  have s2 : (iblk0 V c 2 t : Vec Ideal S128 .f32) (ix1 q) = (V c main_arg3 : S128.Idx → EReal) (ix1 q) :=
    congrArg (V c main_arg3 : S128.Idx → EReal) hb
  rw [s2]
  refine congrArg (fun z : EReal => z + (V c main_arg3 : S128.Idx → EReal) (ix1 q)) (Finset.sum_congr rfl fun k _ => ?_)
  rw [s0 k, s1 k]

/-- An index of the output array is in point t's block iff each coordinate is in the block's range on its axis. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v40).slice (win0_3.rect t)).set ↔ _
  rw [View.set_slice_whole, Rect.mem_set_unit]
  exact Iff.rfl

/-- The blocks tile the array: row r lies in the block of point r / 2000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 2000 < 50 := by omega
  obtain ⟨-, -, -, -, -, e5, e6⟩ := idx_facts ⟨(i 0).val / 2000, hlt⟩
  have e5' : win0_3.index ⟨(i 0).val / 2000, hlt⟩ (0 : Fin 2) = (i 0).val / 2000 := e5
  refine ⟨⟨(i 0).val / 2000, hlt⟩, flush0_3 _, ?_⟩
  rw [mem_blk]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    omega
  | ⟨1, _⟩ =>
    show win0_3.index ⟨(i 0).val / 2000, hlt⟩ (1 : Fin 2) * 128 ≤ (i 1).val
      ∧ (i 1).val < win0_3.index ⟨(i 0).val / 2000, hlt⟩ (1 : Fin 2) * 128 + 128
    omega

/-- After region 0 its output array is one dense layer with ELU of the arrays its three input windows read. -/
theorem final (c : Dev nD) :
    (dat0 V c).arrAt 3 cfg0.N
      = Cert.Spec.linElu (R := 100000) (K := 64) (N := 128) (V c main_v21) (V c main_arg2) (V c main_arg3) :=
  (dat0 V c).arrAt_eq_of_cover 3 _ (fun t _ => flushed_eq V c t) cover

end Cert.KernelIdeal.Region0

end
-- ==== Proof.Region1.lean ====
/-
  Region 1: one dense layer followed by ELU, computed block by block over a grid of 50 points.

  At point t the body reads block t of the input A (rows 2000·t … 2000·t + 1999, all 64 columns), the whole weight
  matrix W (64 × 128) and the whole bias b (128 entries), and writes block t of the output (the same rows, all 128
  columns). Entry (p, q) of the written block is  elu (∑ k < 64, A (2000·t + p, k) · W (k, q) + b q):  over the
  extended reals narrowing an operand is the identity, the block product into a zero accumulator is the plain sum of
  products along the contracted axis, the bias cast to one row and broadcast down the block reads b q, and
  "select (y > 0) y (e^y − 1)" with the float patterns of 0.0 and 1.0 is elu y (`Spec.elu_bits`).
  So output entry (r, q) depends only on row r of A, column q of W and b q, all inside what point r / 2000 reads; the
  50 row blocks tile the 100000 rows, hence the array ends as `Spec.linElu A W b`.
-/
import proofs.«155423_j28054726378292_1_alg».proof.Proof.Gen.KernelIdeal.Frame
import proofs.«155423_j28054726378292_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-! ## The body's value at an entry -/

/-- The left operand's index of the block product at output entry j and contraction position k: on the row axis, j's row; -/
theorem lhs_row (j : S2000x128.Idx) (k : dot_S2000x64_S64x128_S2000x128_1_0_0_1_n_n.contr.Idx) :
    (dot_S2000x64_S64x128_S2000x128_1_0_0_1_n_n.lhsIdx j k 0).val = (j 0).val := by
  simp [DotDims.lhsIdx, dot_S2000x64_S64x128_S2000x128_1_0_0_1_n_n]; rfl

/-- on the column axis, k. -/
theorem lhs_col (j : S2000x128.Idx) (k : dot_S2000x64_S64x128_S2000x128_1_0_0_1_n_n.contr.Idx) :
    (dot_S2000x64_S64x128_S2000x128_1_0_0_1_n_n.lhsIdx j k 1).val = (k ⟨0, by decide⟩).val :=
  dot_S2000x64_S64x128_S2000x128_1_0_0_1_n_n.lhsIdx_val_of_single rfl j k

/-- The right operand's index: on the row axis, k; -/
theorem rhs_row (j : S2000x128.Idx) (k : dot_S2000x64_S64x128_S2000x128_1_0_0_1_n_n.contr.Idx) :
    (dot_S2000x64_S64x128_S2000x128_1_0_0_1_n_n.rhsIdx j k 0).val = (k ⟨0, by decide⟩).val :=
  dot_S2000x64_S64x128_S2000x128_1_0_0_1_n_n.rhsIdx_val_of_single rfl j k

/-- on the column axis, j's column. -/
theorem rhs_col (j : S2000x128.Idx) (k : dot_S2000x64_S64x128_S2000x128_1_0_0_1_n_n.contr.Idx) :
    (dot_S2000x64_S64x128_S2000x128_1_0_0_1_n_n.rhsIdx j k 1).val = (j 1).val := by
  simp [DotDims.rhsIdx, dot_S2000x64_S64x128_S2000x128_1_0_0_1_n_n]; rfl

/-- The block product into a zero accumulator, at entry (p, q): row p of the left block against column q of the
    right block, summed over the 64 contracted positions. -/
theorem matmul_entry {φ₁ φ₂ : FTy} (a : FVec Ideal S2000x64 φ₁) (w : FVec Ideal S64x128 φ₂) (p : Fin 2000) (q : Fin 128) :
    matmul dot_S2000x64_S64x128_S2000x128_1_0_0_1_n_n none a w (constant (F := Ideal) S2000x128 .f32 0x00000000#32) (ix2 p q)
      = ∑ k : Fin 64, a (ix2 p k) * w (ix2 k q) := by
  show FloatOps.matmul _ none a w _ (ix2 p q) = _
  rw [Ideal.matmul_constant_zero_apply,
    ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have hl : dot_S2000x64_S64x128_S2000x128_1_0_0_1_n_n.lhsIdx (ix2 p q)
      ((contrEquiv1 dot_S2000x64_S64x128_S2000x128_1_0_0_1_n_n 64 rfl rfl).symm k) = ix2 p k := by
    funext ax; apply Fin.ext
    match ax with
    | ⟨0, _⟩ => exact lhs_row _ _
    | ⟨1, _⟩ => exact (lhs_col _ _).trans hk
  have hr : dot_S2000x64_S64x128_S2000x128_1_0_0_1_n_n.rhsIdx (ix2 p q)
      ((contrEquiv1 dot_S2000x64_S64x128_S2000x128_1_0_0_1_n_n 64 rfl rfl).symm k) = ix2 k q := by
    funext ax; apply Fin.ext
    match ax with
    | ⟨0, _⟩ => exact (rhs_row _ _).trans hk
    | ⟨1, _⟩ => exact rhs_col _ _
  rw [hl, hr]

/-- The bias laid along every row: the one-row cast of the vector, broadcast down the block, reads the vector at
    the column. -/
theorem bias_entry (b : Vec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q) ?_).trans
    (shapeCast_a_1a_apply b shapeCasts_S128_S1x128 0 q)
  intro a
  match a with
  | ⟨0, _⟩ => rfl
  | ⟨1, _⟩ => rfl

/-- The body's payload at entry (p, q) of its block: ELU of row p of the input block against column q of the
    weights, plus the bias at q. -/
theorem pay_entry (x0 : Vec Ideal S2000x64 .f32) (x1 : Vec Ideal S64x128 .f32) (x2 : Vec Ideal S128 .f32)
    (p : Fin 2000) (q : Fin 128) :
    k1_pay1 x0 x1 x2 (ix2 p q) = Cert.Spec.elu ((∑ k : Fin 64, x0 (ix2 p k) * x1 (ix2 k q)) + x2 (ix1 q)) := by
  have hy : addf
        (matmul dot_S2000x64_S64x128_S2000x128_1_0_0_1_n_n none
          (truncf .bf16 (shapeCast S2000x64 x0 shapeCasts_S2000x64_S2000x64) bitsLt_bf16_f32)
          (truncf .bf16 x1 bitsLt_bf16_f32) (constant (F := Ideal) S2000x128 .f32 0x00000000#32))
        (broadcastTo S2000x128 (shapeCast S1x128 x2 shapeCasts_S128_S1x128) broadcasts_S1x128_S2000x128) (ix2 p q)
      = (∑ k : Fin 64, x0 (ix2 p k) * x1 (ix2 k q)) + x2 (ix1 q) := by
    rw [addf_apply, bias_entry, matmul_entry, shapeCast_self]
    rfl
  refine Eq.trans ?_ (Cert.Spec.elu_bits _)
  rw [← hy]
  rfl

/-! ## From the blocks to the array -/

theorem off2_zero : (![0, 0] : Fin 2 → Nat) = fun _ => 0 := funext fun a => by fin_cases a <;> rfl
theorem off1_zero : (![0] : Fin 1 → Nat) = fun _ => 0 := funext fun a => by fin_cases a <;> rfl

/-- The printed index maps, decided over the 50 grid points: the input and the output move down their arrays one block
    of rows per point and stay in column block 0; the weights and the bias stay at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- WHAT POINT t WRITES BACK is block t of the dense layer with ELU of the three arrays as the region finds them. -/
theorem flushed_eq (c : Dev nD) (t : Fin cfg1.N) :
    (dat1 V c).flushed 3 t = ((cfg1.win 3).blk t).view.read (Elt Ideal)
      (Cert.Spec.linElu (R := 100000) (K := 64) (N := 128) (V c main_v39) (V c main_arg4) (V c main_arg5)) := by
  show (cfg1.win 3).cut (grid1.coords t) ((dat1 V c).after 3 t) = _
  rw [after1_3]
  unfold out1_3
  rw [View.canon_unit_zero off2_zero]
  simp only [View.ld_unit_zero (S := S2000x64) off2_zero, View.ld_unit_zero (S := S64x128) off2_zero,
    View.ld_unit_zero (S := S128) off1_zero]
  obtain ⟨e0, e1, e2, e3, e4, e5, e6⟩ := idx_facts t
  have ht : t.val < 50 := t.isLt
  funext j
  obtain ⟨p, q, rfl⟩ : ∃ (p : Fin 2000) (q : Fin 128), j = ix2 p q := ⟨j 0, j 1, eq_ix2 j⟩
  have hrow : 2000 * t.val + p.val < 100000 := by have := p.isLt; omega
  have hout : ((cfg1.win 3).blk t).view.emb (ix2 p q)
      = ix2 (n0 := 100000) (n1 := 128) ⟨2000 * t.val + p.val, hrow⟩ q := by
    funext a; apply Fin.ext
    match a with
    | ⟨0, _⟩ => show win1_3.index t (0 : Fin 2) * 2000 + 1 * p.val = 2000 * t.val + p.val; omega
    | ⟨1, _⟩ => show win1_3.index t (1 : Fin 2) * 128 + 1 * q.val = q.val; omega
  have hin : ∀ k : Fin 64, ((cfg1.win 0).blk t).view.emb (ix2 p k)
      = ix2 (n0 := 100000) (n1 := 64) ⟨2000 * t.val + p.val, hrow⟩ k := fun k => by
    funext a; apply Fin.ext
    match a with
    | ⟨0, _⟩ => show win1_0.index t (0 : Fin 2) * 2000 + 1 * p.val = 2000 * t.val + p.val; omega
    | ⟨1, _⟩ => show win1_0.index t (1 : Fin 2) * 64 + 1 * k.val = k.val; omega
  have hw : ∀ k : Fin 64, ((cfg1.win 1).blk t).view.emb (ix2 k q) = ix2 (n0 := 64) (n1 := 128) k q := fun k => by
    funext a; apply Fin.ext
    match a with
    | ⟨0, _⟩ => show win1_1.index t (0 : Fin 2) * 64 + 1 * k.val = k.val; omega
    | ⟨1, _⟩ => show win1_1.index t (1 : Fin 2) * 128 + 1 * q.val = q.val; omega
  have hb : ((cfg1.win 2).blk t).view.emb (ix1 q) = ix1 (n := 128) q := by
    funext a; apply Fin.ext
    match a with
    | ⟨0, _⟩ => show win1_2.index t (0 : Fin 1) * 128 + 1 * q.val = q.val; omega
  show k1_pay1 (iblk1 V c 0 t) (iblk1 V c 1 t) (iblk1 V c 2 t) (ix2 p q)
    = Cert.Spec.linElu (R := 100000) (K := 64) (N := 128) (V c main_v39) (V c main_arg4) (V c main_arg5)
        (((cfg1.win 3).blk t).view.emb (ix2 p q))
  rw [hout, Cert.Spec.linElu_apply]
  refine (pay_entry (iblk1 V c 0 t) (iblk1 V c 1 t) (iblk1 V c 2 t) p q).trans (congrArg Cert.Spec.elu ?_)
  have s0 : ∀ k : Fin 64, (iblk1 V c 0 t : Vec Ideal S2000x64 .f32) (ix2 p k)
      = (V c main_v39 : S100000x64.Idx → EReal) (ix2 ⟨2000 * t.val + p.val, hrow⟩ k) := fun k =>
    congrArg (V c main_v39 : S100000x64.Idx → EReal) (hin k)
  have s1 : ∀ k : Fin 64, (iblk1 V c 1 t : Vec Ideal S64x128 .f32) (ix2 k q)
      = (V c main_arg4 : S64x128.Idx → EReal) (ix2 k q) := fun k =>
    congrArg (V c main_arg4 : S64x128.Idx → EReal) (hw k)
  have s2 : (iblk1 V c 2 t : Vec Ideal S128 .f32) (ix1 q) = (V c main_arg5 : S128.Idx → EReal) (ix1 q) :=
    congrArg (V c main_arg5 : S128.Idx → EReal) hb
  rw [s2]
  refine congrArg (fun z : EReal => z + (V c main_arg5 : S128.Idx → EReal) (ix1 q)) (Finset.sum_congr rfl fun k _ => ?_)
  rw [s0 k, s1 k]

/-- An index of the output array is in point t's block iff each coordinate is in the block's range on its axis. -/
theorem mem_blk (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v41).slice (win1_3.rect t)).set ↔ _
  rw [View.set_slice_whole, Rect.mem_set_unit]
  exact Iff.rfl

/-- The blocks tile the array: row r lies in the block of point r / 2000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hlt : (i 0).val / 2000 < 50 := by omega
  obtain ⟨-, -, -, -, -, e5, e6⟩ := idx_facts ⟨(i 0).val / 2000, hlt⟩
  have e5' : win1_3.index ⟨(i 0).val / 2000, hlt⟩ (0 : Fin 2) = (i 0).val / 2000 := e5
  refine ⟨⟨(i 0).val / 2000, hlt⟩, flush1_3 _, ?_⟩
  rw [mem_blk]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    omega
  | ⟨1, _⟩ =>
    show win1_3.index ⟨(i 0).val / 2000, hlt⟩ (1 : Fin 2) * 128 ≤ (i 1).val
      ∧ (i 1).val < win1_3.index ⟨(i 0).val / 2000, hlt⟩ (1 : Fin 2) * 128 + 128
    omega

/-- After region 1 its output array is one dense layer with ELU of the arrays its three input windows read. -/
theorem final (c : Dev nD) :
    (dat1 V c).arrAt 3 cfg1.N
      = Cert.Spec.linElu (R := 100000) (K := 64) (N := 128) (V c main_v39) (V c main_arg4) (V c main_arg5) :=
  (dat1 V c).arrAt_eq_of_cover 3 _ (fun t _ => flushed_eq V c t) cover

end Cert.KernelIdeal.Region1

end
-- ==== Proof.Region2.lean ====
/-
  Region 2 of the layer: the self branch, a two-layer network on the node features.

  The region visits 50 grid points. At point t it holds rows 2000·t … 2000·t + 1999 of the features x ([100000, 64])
  together with all of W1 ([64, 512]), b1 ([512]), W2 ([512, 128]) and b2 ([128]), and writes the [2000, 128] block
  whose entry (p, q) is
      elu (∑ h < 512, elu (∑ k < 64, x (2000·t + p, k) · W1 (k, h) + b1 h) · W2 (h, q) + b2 q).
  Over the extended reals the narrowing of the operands is the identity, each matrix product into the zero
  accumulator is the plain sum of products over the contracted coordinate, a bias viewed [1, n] and repeated down
  the rows reads the bias at the column, and "y where y exceeds 0, else e^y − 1" is elu. The blocks of 2000 rows
  tile the 100000 rows (row r lies in block r / 2000), so the array the region leaves is mlp x W1 b1 W2 b2 at
  every index.
-/
import proofs.«155423_j28054726378292_1_alg».proof.Proof.Gen.KernelIdeal.Frame
import proofs.«155423_j28054726378292_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-! ## The two matrix products at an index -/

/-- First product, left operand, row axis: the output's row. -/
theorem lhs_first_0 (j : S2000x512.Idx) (k : dot_S2000x64_S64x512_S2000x512_1_0_0_1_n_n.contr.Idx) :
    (dot_S2000x64_S64x512_S2000x512_1_0_0_1_n_n.lhsIdx j k 0).val = (j 0).val := by
  unfold DotDims.lhsIdx
  rw [dif_neg (show ¬(0 : Fin S2000x64.rank) ∈ dot_S2000x64_S64x512_S2000x512_1_0_0_1_n_n.lhsBatch by decide),
    dif_pos (show (0 : Fin S2000x64.rank) ∈ dot_S2000x64_S64x512_S2000x512_1_0_0_1_n_n.lhsNonContracting by decide)]
  rfl

/-- First product, left operand, column axis: the contracted coordinate. -/
theorem lhs_first_1 (j : S2000x512.Idx) (k : dot_S2000x64_S64x512_S2000x512_1_0_0_1_n_n.contr.Idx) :
    (dot_S2000x64_S64x512_S2000x512_1_0_0_1_n_n.lhsIdx j k 1).val = (k ⟨0, by decide⟩).val :=
  dot_S2000x64_S64x512_S2000x512_1_0_0_1_n_n.lhsIdx_val_of_single rfl j k

/-- First product, right operand, row axis: the contracted coordinate. -/
theorem rhs_first_0 (j : S2000x512.Idx) (k : dot_S2000x64_S64x512_S2000x512_1_0_0_1_n_n.contr.Idx) :
    (dot_S2000x64_S64x512_S2000x512_1_0_0_1_n_n.rhsIdx j k 0).val = (k ⟨0, by decide⟩).val :=
  dot_S2000x64_S64x512_S2000x512_1_0_0_1_n_n.rhsIdx_val_of_single rfl j k

/-- First product, right operand, column axis: the output's column. -/
theorem rhs_first_1 (j : S2000x512.Idx) (k : dot_S2000x64_S64x512_S2000x512_1_0_0_1_n_n.contr.Idx) :
    (dot_S2000x64_S64x512_S2000x512_1_0_0_1_n_n.rhsIdx j k 1).val = (j 1).val := by
  unfold DotDims.rhsIdx
  rw [dif_neg (show ¬(1 : Fin S64x512.rank) ∈ dot_S2000x64_S64x512_S2000x512_1_0_0_1_n_n.rhsBatch by decide),
    dif_pos (show (1 : Fin S64x512.rank) ∈ dot_S2000x64_S64x512_S2000x512_1_0_0_1_n_n.rhsNonContracting by decide)]
  rfl

/-- The first product into the zero accumulator, at (p, h): the sum over the 64 contracted coordinates. -/
theorem first_product_apply {φ₁ φ₂ : FTy} (A : FVec Ideal S2000x64 φ₁) (B : FVec Ideal S64x512 φ₂) (p : Fin 2000) (h : Fin 512) :
    matmul dot_S2000x64_S64x512_S2000x512_1_0_0_1_n_n none A B (constant (F := Ideal) S2000x512 .f32 0x00000000#32) (ix2 p h)
      = ∑ k : Fin 64, A (ix2 p k) * B (ix2 k h) := by
  refine (Ideal.matmul_constant_zero_apply dot_S2000x64_S64x512_S2000x512_1_0_0_1_n_n none A B (ix2 p h)).trans ?_
  rw [← Equiv.sum_comp (contrEquiv1 dot_S2000x64_S64x512_S2000x512_1_0_0_1_n_n 64 rfl rfl).symm]
  refine Finset.sum_congr rfl fun c _ => ?_
  have hc := contrEquiv1_symm_val dot_S2000x64_S64x512_S2000x512_1_0_0_1_n_n 64 rfl rfl c
  have hl : dot_S2000x64_S64x512_S2000x512_1_0_0_1_n_n.lhsIdx (ix2 p h) ((contrEquiv1 _ 64 rfl rfl).symm c) = ix2 p c := by
    funext ax; apply Fin.ext
    match ax with
    | ⟨0, _⟩ => exact lhs_first_0 _ _
    | ⟨1, _⟩ => exact (lhs_first_1 _ _).trans hc
  have hr : dot_S2000x64_S64x512_S2000x512_1_0_0_1_n_n.rhsIdx (ix2 p h) ((contrEquiv1 _ 64 rfl rfl).symm c) = ix2 c h := by
    funext ax; apply Fin.ext
    match ax with
    | ⟨0, _⟩ => exact (rhs_first_0 _ _).trans hc
    | ⟨1, _⟩ => exact rhs_first_1 _ _
  rw [hl, hr]

/-- Second product, left operand, row axis: the output's row. -/
theorem lhs_second_0 (j : S2000x128.Idx) (k : dot_S2000x512_S512x128_S2000x128_1_0_0_1_n_n.contr.Idx) :
    (dot_S2000x512_S512x128_S2000x128_1_0_0_1_n_n.lhsIdx j k 0).val = (j 0).val := by
  unfold DotDims.lhsIdx
  rw [dif_neg (show ¬(0 : Fin S2000x512.rank) ∈ dot_S2000x512_S512x128_S2000x128_1_0_0_1_n_n.lhsBatch by decide),
    dif_pos (show (0 : Fin S2000x512.rank) ∈ dot_S2000x512_S512x128_S2000x128_1_0_0_1_n_n.lhsNonContracting by decide)]
  rfl

/-- Second product, left operand, column axis: the contracted coordinate. -/
theorem lhs_second_1 (j : S2000x128.Idx) (k : dot_S2000x512_S512x128_S2000x128_1_0_0_1_n_n.contr.Idx) :
    (dot_S2000x512_S512x128_S2000x128_1_0_0_1_n_n.lhsIdx j k 1).val = (k ⟨0, by decide⟩).val :=
  dot_S2000x512_S512x128_S2000x128_1_0_0_1_n_n.lhsIdx_val_of_single rfl j k

/-- Second product, right operand, row axis: the contracted coordinate. -/
theorem rhs_second_0 (j : S2000x128.Idx) (k : dot_S2000x512_S512x128_S2000x128_1_0_0_1_n_n.contr.Idx) :
    (dot_S2000x512_S512x128_S2000x128_1_0_0_1_n_n.rhsIdx j k 0).val = (k ⟨0, by decide⟩).val :=
  dot_S2000x512_S512x128_S2000x128_1_0_0_1_n_n.rhsIdx_val_of_single rfl j k

/-- Second product, right operand, column axis: the output's column. -/
theorem rhs_second_1 (j : S2000x128.Idx) (k : dot_S2000x512_S512x128_S2000x128_1_0_0_1_n_n.contr.Idx) :
    (dot_S2000x512_S512x128_S2000x128_1_0_0_1_n_n.rhsIdx j k 1).val = (j 1).val := by
  unfold DotDims.rhsIdx
  rw [dif_neg (show ¬(1 : Fin S512x128.rank) ∈ dot_S2000x512_S512x128_S2000x128_1_0_0_1_n_n.rhsBatch by decide),
    dif_pos (show (1 : Fin S512x128.rank) ∈ dot_S2000x512_S512x128_S2000x128_1_0_0_1_n_n.rhsNonContracting by decide)]
  rfl

/-- The second product into the zero accumulator, at (p, q): the sum over the 512 contracted coordinates. -/
theorem second_product_apply {φ₁ φ₂ : FTy} (A : FVec Ideal S2000x512 φ₁) (B : FVec Ideal S512x128 φ₂) (p : Fin 2000) (q : Fin 128) :
    matmul dot_S2000x512_S512x128_S2000x128_1_0_0_1_n_n none A B (constant (F := Ideal) S2000x128 .f32 0x00000000#32) (ix2 p q)
      = ∑ h : Fin 512, A (ix2 p h) * B (ix2 h q) := by
  refine (Ideal.matmul_constant_zero_apply dot_S2000x512_S512x128_S2000x128_1_0_0_1_n_n none A B (ix2 p q)).trans ?_
  rw [← Equiv.sum_comp (contrEquiv1 dot_S2000x512_S512x128_S2000x128_1_0_0_1_n_n 512 rfl rfl).symm]
  refine Finset.sum_congr rfl fun c _ => ?_
  have hc := contrEquiv1_symm_val dot_S2000x512_S512x128_S2000x128_1_0_0_1_n_n 512 rfl rfl c
  have hl : dot_S2000x512_S512x128_S2000x128_1_0_0_1_n_n.lhsIdx (ix2 p q) ((contrEquiv1 _ 512 rfl rfl).symm c) = ix2 p c := by
    funext ax; apply Fin.ext
    match ax with
    | ⟨0, _⟩ => exact lhs_second_0 _ _
    | ⟨1, _⟩ => exact (lhs_second_1 _ _).trans hc
  have hr : dot_S2000x512_S512x128_S2000x128_1_0_0_1_n_n.rhsIdx (ix2 p q) ((contrEquiv1 _ 512 rfl rfl).symm c) = ix2 c q := by
    funext ax; apply Fin.ext
    match ax with
    | ⟨0, _⟩ => exact (rhs_second_0 _ _).trans hc
    | ⟨1, _⟩ => exact rhs_second_1 _ _
  rw [hl, hr]

/-! ## The bias rows and the kernel's ELU at an index -/

/-- A bias vector [n] viewed [1, n] and repeated down m rows reads, at (p, h), the bias at h. -/
theorem bias_apply {m n : Nat} (b : (⟨1, ![n]⟩ : Shape).Idx → EReal)
    (hs : (⟨1, ![n]⟩ : Shape).ShapeCasts ⟨2, ![1, n]⟩) (hb : (⟨2, ![1, n]⟩ : Shape).Broadcasts ⟨2, ![m, n]⟩)
    (p : Fin m) (h : Fin n) :
    broadcastTo ⟨2, ![m, n]⟩ (shapeCast ⟨2, ![1, n]⟩ b hs) hb (ix2 p h) = b (ix1 h) := by
  refine (broadcastTo_apply _ hb (ix2 p h) (ix2 (0 : Fin 1) h) ?_).trans ?_
  · intro a
    match a with
    | ⟨0, _⟩ => rfl
    | ⟨1, _⟩ =>
      show h.val = if n = 1 then 0 else h.val
      split_ifs with hn
      · have := h.isLt; omega
      · rfl
  · refine (shapeCast_addUnit_apply ![n] b hs (ix2 (0 : Fin 1) h)).trans ?_
    exact congrArg b (funext fun a => match a with | ⟨0, _⟩ => rfl)

/-- The kernel's ELU on a vector: keep y where y exceeds the pattern of 0.0, else e^y minus the pattern of 1.0. -/
def kernelElu {s : Shape} (y : FVec Ideal s .f32) : FVec Ideal s .f32 :=
  select (cmpf .ogt y (broadcast s (Scalar.ofBits .f32 0x00000000#32))) y
    (subf (exp y) (broadcast s (Scalar.ofBits .f32 0x3F800000#32)))

/-- At an index it is ELU of the entry. -/
theorem kernelElu_apply {s : Shape} (y : FVec Ideal s .f32) (i : s.Idx) : kernelElu y i = Cert.Spec.elu (y i) :=
  Cert.Spec.elu_bits (y i)

/-! ## The body's payload at an index -/

/-- The hidden activations of one block of rows: the first layer's product, its bias row, the kernel's ELU. -/
def hidden (x0 : Vec Ideal S2000x64 .f32) (x1 : Vec Ideal S64x512 .f32) (x2 : Vec Ideal S512 .f32) : FVec Ideal S2000x512 .f32 :=
  kernelElu (addf
    (matmul dot_S2000x64_S64x512_S2000x512_1_0_0_1_n_n none (truncf .bf16 x0 bitsLt_bf16_f32) (truncf .bf16 x1 bitsLt_bf16_f32)
      (constant S2000x512 .f32 0x00000000#32))
    (broadcastTo S2000x512 (shapeCast S1x512 x2 shapeCasts_S512_S1x512) broadcasts_S1x512_S2000x512))

/-- The payload is the second layer over the hidden activations. -/
theorem pay_eq (x0 : Vec Ideal S2000x64 .f32) (x1 : Vec Ideal S64x512 .f32) (x2 : Vec Ideal S512 .f32)
    (x3 : Vec Ideal S512x128 .f32) (x4 : Vec Ideal S128 .f32) :
    k2_pay1 (F := Ideal) x0 x1 x2 x3 x4 = kernelElu (addf
      (matmul dot_S2000x512_S512x128_S2000x128_1_0_0_1_n_n none (truncf .bf16 (hidden x0 x1 x2) bitsLt_bf16_f32) (truncf .bf16 x3 bitsLt_bf16_f32)
        (constant S2000x128 .f32 0x00000000#32))
      (broadcastTo S2000x128 (shapeCast S1x128 x4 shapeCasts_S128_S1x128) broadcasts_S1x128_S2000x128)) := rfl

/-- The hidden activation at (p, h): ELU of row p of the block against column h of the first weights, plus the bias. -/
theorem hidden_apply (x0 : Vec Ideal S2000x64 .f32) (x1 : Vec Ideal S64x512 .f32) (x2 : Vec Ideal S512 .f32)
    (p : Fin 2000) (h : Fin 512) :
    hidden x0 x1 x2 (ix2 p h) = Cert.Spec.elu ((∑ k : Fin 64, x0 (ix2 p k) * x1 (ix2 k h)) + x2 (ix1 h)) := by
  unfold hidden
  refine (kernelElu_apply _ _).trans (congrArg Cert.Spec.elu ?_)
  refine (addf_apply _ _ _).trans ?_
  refine congrArg₂ (· + ·) ?_ ?_
  · exact first_product_apply _ _ p h
  · exact bias_apply x2 _ _ p h

/-- The payload at (p, q): the two layers at row p of the block and column q. -/
theorem pay_apply (x0 : Vec Ideal S2000x64 .f32) (x1 : Vec Ideal S64x512 .f32) (x2 : Vec Ideal S512 .f32)
    (x3 : Vec Ideal S512x128 .f32) (x4 : Vec Ideal S128 .f32) (p : Fin 2000) (q : Fin 128) :
    k2_pay1 (F := Ideal) x0 x1 x2 x3 x4 (ix2 p q)
      = Cert.Spec.elu ((∑ h : Fin 512,
          Cert.Spec.elu ((∑ k : Fin 64, x0 (ix2 p k) * x1 (ix2 k h)) + x2 (ix1 h)) * x3 (ix2 h q)) + x4 (ix1 q)) := by
  rw [pay_eq]
  refine (kernelElu_apply _ _).trans (congrArg Cert.Spec.elu ?_)
  refine (addf_apply _ _ _).trans ?_
  refine congrArg₂ (· + ·) ?_ ?_
  · refine (second_product_apply _ _ p q).trans ?_
    refine Finset.sum_congr rfl fun h _ => ?_
    exact congrArg (· * x3 (ix2 h q)) (hidden_apply x0 x1 x2 p h)
  · exact bias_apply x4 _ _ p q

/-! ## One block against the whole arrays -/

/-- With the block's row p holding row r of the features, the payload at (p, q) is the two-layer network at (r, q). -/
theorem payload_is_mlp (x : Vec Ideal S100000x64 .f32) (W1 : Vec Ideal S64x512 .f32) (b1 : Vec Ideal S512 .f32)
    (W2 : Vec Ideal S512x128 .f32) (b2 : Vec Ideal S128 .f32) (x0 : Vec Ideal S2000x64 .f32)
    (r : Fin 100000) (p : Fin 2000) (q : Fin 128) (hx : ∀ k : Fin 64, x0 (ix2 p k) = x (ix2 r k)) :
    k2_pay1 (F := Ideal) x0 W1 b1 W2 b2 (ix2 p q)
      = Cert.Spec.mlp (R := 100000) (K := 64) (H := 512) (N := 128) x W1 b1 W2 b2 (ix2 r q) := by
  refine (pay_apply x0 W1 b1 W2 b2 p q).trans ?_
  refine Eq.trans ?_ (Cert.Spec.linElu_apply (R := 100000) (K := 512) (N := 128)
    (Cert.Spec.linElu (R := 100000) (K := 64) (N := 512) x W1 b1) W2 b2 r q).symm
  refine congrArg Cert.Spec.elu (congrArg₂ (· + ·) (Finset.sum_congr rfl fun h _ => ?_) rfl)
  refine congrArg (· * W2 (ix2 h q)) ?_
  refine Eq.trans ?_ (Cert.Spec.linElu_apply (R := 100000) (K := 64) (N := 512) x W1 b1 r h).symm
  refine congrArg Cert.Spec.elu (congrArg₂ (· + ·) (Finset.sum_congr rfl fun k _ => ?_) rfl)
  exact congrArg (· * W1 (ix2 k h)) (hx k)

/-- The same at an index j of block number n and the array index i under it: the weight and bias blocks are the
    arrays, the feature block's rows are rows 2000·n onwards. -/
theorem point_value (n : Nat) (x : Vec Ideal S100000x64 .f32) (W1 : Vec Ideal S64x512 .f32) (b1 : Vec Ideal S512 .f32)
    (W2 : Vec Ideal S512x128 .f32) (b2 : Vec Ideal S128 .f32)
    (x0 : Vec Ideal S2000x64 .f32) (x1 : Vec Ideal S64x512 .f32) (x2 : Vec Ideal S512 .f32)
    (x3 : Vec Ideal S512x128 .f32) (x4 : Vec Ideal S128 .f32)
    (hx : ∀ (y : S2000x64.Idx) (z : S100000x64.Idx), (z 0).val = n * 2000 + (y 0).val → (z 1).val = (y 1).val → x0 y = x z)
    (h1 : x1 = W1) (h2 : x2 = b1) (h3 : x3 = W2) (h4 : x4 = b2)
    (j : S2000x128.Idx) (i : S100000x128.Idx) (hi0 : (i 0).val = n * 2000 + (j 0).val) (hi1 : (i 1).val = (j 1).val) :
    k2_pay1 (F := Ideal) x0 x1 x2 x3 x4 j
      = Cert.Spec.mlp (R := 100000) (K := 64) (H := 512) (N := 128) x W1 b1 W2 b2 i := by
  subst h1 h2 h3 h4
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  exact payload_is_mlp x x1 x2 x3 x4 x0 r p q' fun k => hx (ix2 p k) (ix2 r k) hi0 rfl

/-! ## From the blocks to the array -/

theorem zero_offsets₂ : (![0, 0] : Fin 2 → Nat) = fun _ => 0 := funext fun a => by fin_cases a <;> rfl
theorem zero_offsets₁ : (![0] : Fin 1 → Nat) = fun _ => 0 := funext fun a => by fin_cases a <;> rfl

/-- The index maps over the 50 grid points: the feature and the output windows sit at block (t, 0), the weight and
    bias windows at block 0. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- What grid point t writes back is block t of the two-layer network of the argument arrays. -/
theorem flushed_eq (c : Dev nD) (t : Fin cfg2.N) :
    (dat2 V c).flushed 5 t = ((cfg2.win 5).blk t).view.read (Elt Ideal)
      (Cert.Spec.mlp (R := 100000) (K := 64) (H := 512) (N := 128) (V c main_arg0) (V c main_arg6) (V c main_arg7) (V c main_arg8) (V c main_arg9)) := by
  show (cfg2.win 5).cut (grid2.coords t) ((dat2 V c).after 5 t) = _
  rw [after2_5]
  unfold out2_5
  rw [View.canon_unit_zero zero_offsets₂]
  simp only [View.ld_unit_zero (S := S2000x64) zero_offsets₂, View.ld_unit_zero (S := S64x512) zero_offsets₂,
    View.ld_unit_zero (S := S512) zero_offsets₁, View.ld_unit_zero (S := S512x128) zero_offsets₂,
    View.ld_unit_zero (S := S128) zero_offsets₁]
  obtain ⟨e00, e01, e10, e11, e20, e30, e31, e40, e50, e51⟩ := block_indices t
  funext j
  show k2_pay1 (F := Ideal) (iblk2 V c 0 t) (iblk2 V c 1 t) (iblk2 V c 2 t) (iblk2 V c 3 t) (iblk2 V c 4 t) j
    = Cert.Spec.mlp (R := 100000) (K := 64) (H := 512) (N := 128) (V c main_arg0) (V c main_arg6) (V c main_arg7) (V c main_arg8) (V c main_arg9)
        (((cfg2.win 5).blk t).view.emb j)
  refine point_value t.val (V c main_arg0) (V c main_arg6) (V c main_arg7) (V c main_arg8) (V c main_arg9)
    (iblk2 V c 0 t) (iblk2 V c 1 t) (iblk2 V c 2 t) (iblk2 V c 3 t) (iblk2 V c 4 t) ?_ ?_ ?_ ?_ ?_ j _ ?_ ?_
  · intro y z hz0 hz1
    show V c main_arg0 (((cfg2.win 0).blk t).view.emb y) = V c main_arg0 z
    refine congrArg (V c main_arg0) (funext fun a => Fin.ext ?_)
    match a with
    | ⟨0, _⟩ => show win2_0.index t (0 : Fin 2) * 2000 + 1 * (y 0).val = (z 0).val; omega
    | ⟨1, _⟩ => show win2_0.index t (1 : Fin 2) * 64 + 1 * (y 1).val = (z 1).val; omega
  · funext y
    show V c main_arg6 (((cfg2.win 1).blk t).view.emb y) = V c main_arg6 y
    refine congrArg (V c main_arg6) (funext fun a => Fin.ext ?_)
    match a with
    | ⟨0, _⟩ => show win2_1.index t (0 : Fin 2) * 64 + 1 * (y 0).val = (y 0).val; omega
    | ⟨1, _⟩ => show win2_1.index t (1 : Fin 2) * 512 + 1 * (y 1).val = (y 1).val; omega
  · funext y
    show V c main_arg7 (((cfg2.win 2).blk t).view.emb y) = V c main_arg7 y
    refine congrArg (V c main_arg7) (funext fun a => Fin.ext ?_)
    match a with
    | ⟨0, _⟩ => show win2_2.index t (0 : Fin 1) * 512 + 1 * (y 0).val = (y 0).val; omega
  · funext y
    show V c main_arg8 (((cfg2.win 3).blk t).view.emb y) = V c main_arg8 y
    refine congrArg (V c main_arg8) (funext fun a => Fin.ext ?_)
    match a with
    | ⟨0, _⟩ => show win2_3.index t (0 : Fin 2) * 512 + 1 * (y 0).val = (y 0).val; omega
    | ⟨1, _⟩ => show win2_3.index t (1 : Fin 2) * 128 + 1 * (y 1).val = (y 1).val; omega
  · funext y
    show V c main_arg9 (((cfg2.win 4).blk t).view.emb y) = V c main_arg9 y
    refine congrArg (V c main_arg9) (funext fun a => Fin.ext ?_)
    match a with
    | ⟨0, _⟩ => show win2_4.index t (0 : Fin 1) * 128 + 1 * (y 0).val = (y 0).val; omega
  · show win2_5.index t (0 : Fin 2) * 2000 + 1 * (j 0).val = t.val * 2000 + (j 0).val; omega
  · show win2_5.index t (1 : Fin 2) * 128 + 1 * (j 1).val = (j 1).val; omega

/-- An index of the output array is in point t's block exactly when each coordinate is in the block's range. -/
theorem mem_blk (t : Fin cfg2.N) (i : S100000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v42).slice (win2_5.rect t)).set ↔ _
  rw [View.set_slice_whole, Rect.mem_set_unit]
  exact Iff.rfl

/-- The 50 blocks of 2000 rows tile the 100000 rows: row r lies in the block of point r / 2000. -/
theorem covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hlt : (i 0).val / 2000 < 50 := by omega
  obtain ⟨t, ht⟩ : ∃ t : Fin cfg2.N, t.val = (i 0).val / 2000 := ⟨⟨(i 0).val / 2000, hlt⟩, rfl⟩
  obtain ⟨-, -, -, -, -, -, -, -, e50, e51⟩ := block_indices t
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 128 ≤ (i 1).val ∧ (i 1).val < win2_5.index t (1 : Fin 2) * 128 + 128
    omega

/-- After region 2 its output array is two dense layers with ELU of the arrays its five input windows read. -/
theorem final (c : Dev nD) :
    (dat2 V c).arrAt 5 cfg2.N
      = Cert.Spec.mlp (R := 100000) (K := 64) (H := 512) (N := 128) (V c main_arg0) (V c main_arg6) (V c main_arg7) (V c main_arg8) (V c main_arg9) :=
  (dat2 V c).arrAt_eq_of_cover 5 _ (fun t _ => flushed_eq V c t) covered

end Cert.KernelIdeal.Region2

end
-- ==== Proof.KValue.lean ====
/-
  The kernel's three results as functions of its arguments, over the extended reals.

  The run ends with each result array at what its own region left there (no later region writes it). A region's
  output array is the dense layer(s) with ELU of the arrays its input windows read, block by block over the fifty
  row tiles (Region0 … Region2); the first two regions read the mean aggregations the host operations computed and
  their weight and bias as launched, the third the node features and its four parameters as launched (KHost).
-/
import proofs.«155423_j28054726378292_1_alg».proof.Proof.KernelRun
import proofs.«155423_j28054726378292_1_alg».proof.Proof.KHost
import proofs.«155423_j28054726378292_1_alg».proof.Proof.Region0
import proofs.«155423_j28054726378292_1_alg».proof.Proof.Region1
import proofs.«155423_j28054726378292_1_alg».proof.Proof.Region2

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Result 0: one layer on the aggregation gathered at row 0 of the edge list and summed at row 1. -/
theorem v40_eq (c : Dev nD) : W4 m ρ c (Proc.devRef .tc main_v40)
    = Cert.Spec.linElu (R := 100000) (K := 64) (N := 128)
        (Cert.Aggr.meanAggr (F := Ideal) (m ((c : Thread nD τ).loc main_arg0)) (Cert.Aggr.row0 (m ((c : Thread nD τ).loc main_arg1))) (Cert.Aggr.row1 (m ((c : Thread nD τ).loc main_arg1))))
        (m ((c : Thread nD τ).loc main_arg2)) (m ((c : Thread nD τ).loc main_arg3)) := by
  rw [HostValue.W4_v40, Region0.final (V1 m ρ) c]
  show Cert.Spec.linElu (R := 100000) (K := 64) (N := 128) (W1 m ρ c (Proc.devRef .tc main_v21)) (W1 m ρ c (Proc.devRef .tc main_arg2)) (W1 m ρ c (Proc.devRef .tc main_arg3)) = _
  rw [HostValue.W1_v21, HostValue.W1_arg2, HostValue.W1_arg3]

/-- Result 1: the same layer shape on the aggregation with the rows exchanged. -/
theorem v41_eq (c : Dev nD) : W4 m ρ c (Proc.devRef .tc main_v41)
    = Cert.Spec.linElu (R := 100000) (K := 64) (N := 128)
        (Cert.Aggr.meanAggr (F := Ideal) (m ((c : Thread nD τ).loc main_arg0)) (Cert.Aggr.row1 (m ((c : Thread nD τ).loc main_arg1))) (Cert.Aggr.row0 (m ((c : Thread nD τ).loc main_arg1))))
        (m ((c : Thread nD τ).loc main_arg4)) (m ((c : Thread nD τ).loc main_arg5)) := by
  rw [HostValue.W4_v41, Region1.final (V2 m ρ) c]
  show Cert.Spec.linElu (R := 100000) (K := 64) (N := 128) (W2 m ρ c (Proc.devRef .tc main_v39)) (W2 m ρ c (Proc.devRef .tc main_arg4)) (W2 m ρ c (Proc.devRef .tc main_arg5)) = _
  rw [HostValue.W2_v39, HostValue.W1_v39, HostValue.W2_arg4, HostValue.W2_arg5]

/-- Result 2: two layers on the node's own features. -/
theorem v42_eq (c : Dev nD) : W4 m ρ c (Proc.devRef .tc main_v42)
    = Cert.Spec.mlp (R := 100000) (K := 64) (H := 512) (N := 128) (m ((c : Thread nD τ).loc main_arg0)) (m ((c : Thread nD τ).loc main_arg6))
        (m ((c : Thread nD τ).loc main_arg7)) (m ((c : Thread nD τ).loc main_arg8)) (m ((c : Thread nD τ).loc main_arg9)) := by
  rw [HostValue.W4_v42, Region2.final (V3 m ρ) c]
  show Cert.Spec.mlp (R := 100000) (K := 64) (H := 512) (N := 128) (W3 m ρ c (Proc.devRef .tc main_arg0)) (W3 m ρ c (Proc.devRef .tc main_arg6)) (W3 m ρ c (Proc.devRef .tc main_arg7)) (W3 m ρ c (Proc.devRef .tc main_arg8)) (W3 m ρ c (Proc.devRef .tc main_arg9)) = _
  rw [HostValue.W3_arg0, HostValue.W3_arg6, HostValue.W3_arg7, HostValue.W3_arg8, HostValue.W3_arg9]

/-- Every weakly fair execution of the kernel's @main terminates with its three results at these functions of the
    launch contents of its arguments, and the arguments unchanged. -/
theorem run : θ_run defs (onTc (τ := τ) (main (F := Ideal))) ⟨m, fun _ => 0, ρ⟩ (fun r => ∀ c : Dev nD,
      r.2.mem ((c.tc : Thread nD τ).loc main_v40)
        = Cert.Spec.linElu (R := 100000) (K := 64) (N := 128)
            (Cert.Aggr.meanAggr (F := Ideal) (m ((c.tc : Thread nD τ).loc main_arg0)) (Cert.Aggr.row0 (m ((c.tc : Thread nD τ).loc main_arg1))) (Cert.Aggr.row1 (m ((c.tc : Thread nD τ).loc main_arg1))))
            (m ((c.tc : Thread nD τ).loc main_arg2)) (m ((c.tc : Thread nD τ).loc main_arg3))
      ∧ r.2.mem ((c.tc : Thread nD τ).loc main_v41)
        = Cert.Spec.linElu (R := 100000) (K := 64) (N := 128)
            (Cert.Aggr.meanAggr (F := Ideal) (m ((c.tc : Thread nD τ).loc main_arg0)) (Cert.Aggr.row1 (m ((c.tc : Thread nD τ).loc main_arg1))) (Cert.Aggr.row0 (m ((c.tc : Thread nD τ).loc main_arg1))))
            (m ((c.tc : Thread nD τ).loc main_arg4)) (m ((c.tc : Thread nD τ).loc main_arg5))
      ∧ r.2.mem ((c.tc : Thread nD τ).loc main_v42)
        = Cert.Spec.mlp (R := 100000) (K := 64) (H := 512) (N := 128) (m ((c.tc : Thread nD τ).loc main_arg0)) (m ((c.tc : Thread nD τ).loc main_arg6))
            (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c).1.trans (v40_eq m ρ c), (h c).2.1.trans (v41_eq m ρ c), (h c).2.2.1.trans (v42_eq m ρ c), (h c).2.2.2⟩)
    (Cert.KernelIdeal.Named.run m ρ)

end Cert.KernelIdeal.KValue

end
-- ==== Proof.RefOps.lean ====
import proofs.«155423_j28054726378292_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 1 … 60 (main_part0), in order.
-/
abbrev ops0 : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    nullary main_c (constantI S_ 32 0#32),
    unary main_c main_v4 (broadcastInDim S1000000 ![] bcast_S_S1000000 : (⟨S_, .i32⟩ : BufTy).Contents (Elt F) → (⟨S1000000, .i32⟩ : BufTy).Contents (Elt F)),
    binary main_v1 main_v4 main_v5 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 100000#32),
    unary main_c_0 main_v6 (broadcastInDim S1000000 ![] bcast_S_S1000000 : (⟨S_, .i32⟩ : BufTy).Contents (Elt F) → (⟨S1000000, .i32⟩ : BufTy).Contents (Elt F)),
    binary main_v1 main_v6 main_v7 (addi : (⟨S1000000, .i32⟩ : BufTy).Contents (Elt F) → (⟨S1000000, .i32⟩ : BufTy).Contents (Elt F) → (⟨S1000000, .i32⟩ : BufTy).Contents (Elt F)),
    ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v8 main_v9 (broadcastInDim S1000000x1 ![0] bcast_S1000000_S1000000x1_0 : (⟨S1000000, .i32⟩ : BufTy).Contents (Elt F) → (⟨S1000000x1, .i32⟩ : BufTy).Contents (Elt F)),
    binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_1 (constant S_ .f32 0x3F800000#32),
    unary main_cst_1 main_v14 (broadcastInDim S1000000x1 ![] bcast_S_S1000000x1 : (⟨S_, .f32⟩ : BufTy).Contents (Elt F) → (⟨S1000000x1, .f32⟩ : BufTy).Contents (Elt F)),
    nullary main_cst_2 (constant S_ .f32 0x00000000#32),
    unary main_cst_2 main_v15 (broadcastInDim S100000x1 ![] bcast_S_S100000x1 : (⟨S_, .f32⟩ : BufTy).Contents (Elt F) → (⟨S100000x1, .f32⟩ : BufTy).Contents (Elt F)),
    unary main_v3 main_v16 (broadcastInDim S1000000x1 ![0] bcast_S1000000_S1000000x1_0 : (⟨S1000000, .i32⟩ : BufTy).Contents (Elt F) → (⟨S1000000x1, .i32⟩ : BufTy).Contents (Elt F)),
    ternary main_v15 main_v16 main_v14 main_v17 ((fun x i u => Host.scatterAdd scatter_S100000x1_S1000000x1_S1000000x1_1_0_0_1 x i u) : (⟨S100000x1, .f32⟩ : BufTy).Contents (Elt F) → (⟨S1000000x1, .i32⟩ : BufTy).Contents (Elt F) → (⟨S1000000x1, .f32⟩ : BufTy).Contents (Elt F) → (⟨S100000x1, .f32⟩ : BufTy).Contents (Elt F)),
    nullary main_cst_3 (constant S_ .f32 0x3F800000#32),
    unary main_cst_3 main_v18 (broadcastInDim S100000x1 ![] bcast_S_S100000x1 : (⟨S_, .f32⟩ : BufTy).Contents (Elt F) → (⟨S100000x1, .f32⟩ : BufTy).Contents (Elt F)),
    binary main_v17 main_v18 main_v19 (maximumf : (⟨S100000x1, .f32⟩ : BufTy).Contents (Elt F) → (⟨S100000x1, .f32⟩ : BufTy).Contents (Elt F) → (⟨S100000x1, .f32⟩ : BufTy).Contents (Elt F)),
    unary main_v19 main_v20 (broadcastInDim S100000x64 ![0, 1] bcast_S100000x1_S100000x64_0_1 : (⟨S100000x1, .f32⟩ : BufTy).Contents (Elt F) → (⟨S100000x64, .f32⟩ : BufTy).Contents (Elt F)),
    binary main_v13 main_v20 main_v21 (Host.divf : (⟨S100000x64, .f32⟩ : BufTy).Contents (Elt F) → (⟨S100000x64, .f32⟩ : BufTy).Contents (Elt F) → (⟨S100000x64, .f32⟩ : BufTy).Contents (Elt F)),
    binary main_v21 main_arg2 main_v22 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg3 main_v23 (broadcastInDim S1x128 ![1] bcast_S128_S1x128_1 : (⟨S128, .f32⟩ : BufTy).Contents (Elt F) → (⟨S1x128, .f32⟩ : BufTy).Contents (Elt F)),
    unary main_v23 main_v24 (broadcastInDim S100000x128 ![0, 1] bcast_S1x128_S100000x128_0_1 : (⟨S1x128, .f32⟩ : BufTy).Contents (Elt F) → (⟨S100000x128, .f32⟩ : BufTy).Contents (Elt F)),
    binary main_v22 main_v24 main_v25 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v25) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v25) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v25) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v25) main_call0.v7 main_call0.call1.v0 select,
    nullary main_c_4 (constantI S_ 32 0#32),
    unary main_c_4 main_v27 (broadcastInDim S1000000 ![] bcast_S_S1000000 : (⟨S_, .i32⟩ : BufTy).Contents (Elt F) → (⟨S1000000, .i32⟩ : BufTy).Contents (Elt F)),
    binary main_v3 main_v27 main_v28 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 100000#32),
    unary main_c_5 main_v29 (broadcastInDim S1000000 ![] bcast_S_S1000000 : (⟨S_, .i32⟩ : BufTy).Contents (Elt F) → (⟨S1000000, .i32⟩ : BufTy).Contents (Elt F)),
    binary main_v3 main_v29 main_v30 (addi : (⟨S1000000, .i32⟩ : BufTy).Contents (Elt F) → (⟨S1000000, .i32⟩ : BufTy).Contents (Elt F) → (⟨S1000000, .i32⟩ : BufTy).Contents (Elt F)),
    ternary main_v28 main_v30 main_v3 main_v31 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v31 main_v32 (broadcastInDim S1000000x1 ![0] bcast_S1000000_S1000000x1_0 : (⟨S1000000, .i32⟩ : BufTy).Contents (Elt F) → (⟨S1000000x1, .i32⟩ : BufTy).Contents (Elt F)),
    binary main_arg0 main_v32 main_v33 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst_6 (constant S_ .f32 0x00000000#32),
    unary main_cst_6 main_v34 (broadcastInDim S100000x64 ![] bcast_S_S100000x64 : (⟨S_, .f32⟩ : BufTy).Contents (Elt F) → (⟨S100000x64, .f32⟩ : BufTy).Contents (Elt F)),
    unary main_v1 main_v35 (broadcastInDim S1000000x1 ![0] bcast_S1000000_S1000000x1_0 : (⟨S1000000, .i32⟩ : BufTy).Contents (Elt F) → (⟨S1000000x1, .i32⟩ : BufTy).Contents (Elt F)),
    ternary main_v34 main_v35 main_v33 main_v36 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_7 (constant S_ .f32 0x3F800000#32),
    unary main_cst_7 main_v37 (broadcastInDim S1000000x1 ![] bcast_S_S1000000x1 : (⟨S_, .f32⟩ : BufTy).Contents (Elt F) → (⟨S1000000x1, .f32⟩ : BufTy).Contents (Elt F)),
    nullary main_cst_8 (constant S_ .f32 0x00000000#32),
    unary main_cst_8 main_v38 (broadcastInDim S100000x1 ![] bcast_S_S100000x1 : (⟨S_, .f32⟩ : BufTy).Contents (Elt F) → (⟨S100000x1, .f32⟩ : BufTy).Contents (Elt F)),
    unary main_v1 main_v39 (broadcastInDim S1000000x1 ![0] bcast_S1000000_S1000000x1_0 : (⟨S1000000, .i32⟩ : BufTy).Contents (Elt F) → (⟨S1000000x1, .i32⟩ : BufTy).Contents (Elt F)),
    ternary main_v38 main_v39 main_v37 main_v40 ((fun x i u => Host.scatterAdd scatter_S100000x1_S1000000x1_S1000000x1_1_0_0_1 x i u) : (⟨S100000x1, .f32⟩ : BufTy).Contents (Elt F) → (⟨S1000000x1, .i32⟩ : BufTy).Contents (Elt F) → (⟨S1000000x1, .f32⟩ : BufTy).Contents (Elt F) → (⟨S100000x1, .f32⟩ : BufTy).Contents (Elt F)),
    nullary main_cst_9 (constant S_ .f32 0x3F800000#32),
    unary main_cst_9 main_v41 (broadcastInDim S100000x1 ![] bcast_S_S100000x1 : (⟨S_, .f32⟩ : BufTy).Contents (Elt F) → (⟨S100000x1, .f32⟩ : BufTy).Contents (Elt F)),
    binary main_v40 main_v41 main_v42 (maximumf : (⟨S100000x1, .f32⟩ : BufTy).Contents (Elt F) → (⟨S100000x1, .f32⟩ : BufTy).Contents (Elt F) → (⟨S100000x1, .f32⟩ : BufTy).Contents (Elt F)),
    unary main_v42 main_v43 (broadcastInDim S100000x64 ![0, 1] bcast_S100000x1_S100000x64_0_1 : (⟨S100000x1, .f32⟩ : BufTy).Contents (Elt F) → (⟨S100000x64, .f32⟩ : BufTy).Contents (Elt F)),
    binary main_v36 main_v43 main_v44 (Host.divf : (⟨S100000x64, .f32⟩ : BufTy).Contents (Elt F) → (⟨S100000x64, .f32⟩ : BufTy).Contents (Elt F) → (⟨S100000x64, .f32⟩ : BufTy).Contents (Elt F)),
    binary main_v44 main_arg4 main_v45 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg5 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)) ]

/-- The operations of @main's statements 61 … 73 (main_part1), in order.
-/
abbrev ops1 : List (HloOp τ sig (Elt F)) :=
  [ binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v48) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v48) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v48) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v48) main_call1.v7 main_call1.call1.v0 select,
    binary main_arg0 main_arg6 main_v50 ((fun l r => Host.dotGeneral dot_S100000x64_S64x512_S100000x512_1_0_0_1_n_n none l r) : (⟨S100000x64, .f32⟩ : BufTy).Contents (Elt F) → (⟨S64x512, .f32⟩ : BufTy).Contents (Elt F) → (⟨S100000x512, .f32⟩ : BufTy).Contents (Elt F)),
    unary main_arg7 main_v51 (broadcastInDim S1x512 ![1] bcast_S512_S1x512_1 : (⟨S512, .f32⟩ : BufTy).Contents (Elt F) → (⟨S1x512, .f32⟩ : BufTy).Contents (Elt F)),
    unary main_v51 main_v52 (broadcastInDim S100000x512 ![0, 1] bcast_S1x512_S100000x512_0_1 : (⟨S1x512, .f32⟩ : BufTy).Contents (Elt F) → (⟨S100000x512, .f32⟩ : BufTy).Contents (Elt F)),
    binary main_v50 main_v52 main_v53 (addf : (⟨S100000x512, .f32⟩ : BufTy).Contents (Elt F) → (⟨S100000x512, .f32⟩ : BufTy).Contents (Elt F) → (⟨S100000x512, .f32⟩ : BufTy).Contents (Elt F)),
    TRef.nullary main_call2.cst (constant S_ .f32 0x00000000#32),
    TRef.unary main_call2.cst main_call2.v0 (broadcastInDim S100000x512 ![] bcast_S_S100000x512),
    TRef.binary (.of main_v53) main_call2.v0 main_call2.v1 (cmpf .ogt),
    TRef.nullary main_call2.cst_0 (constant S_ .f32 0x00000000#32),
    TRef.unary main_call2.cst_0 main_call2.v2 (broadcastInDim S100000x512 ![] bcast_S_S100000x512),
    TRef.binary (.of main_v53) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x512 ![] bcast_S_S100000x512),
    TRef.ternary main_call2.v3 main_call2.call0.v1 (.of main_v53) main_call2.call0.v2 select,
    TRef.unary main_call2.call0.v2 main_call2.v5 Host.expm1,
    TRef.nullary main_call2.cst_2 (constant S_ .f32 0x3F800000#32),
    TRef.unary main_call2.cst_2 main_call2.v6 (broadcastInDim S100000x512 ![] bcast_S_S100000x512),
    TRef.binary main_call2.v6 main_call2.v5 main_call2.v7 mulf,
    TRef.ternary main_call2.v1 (.of main_v53) main_call2.v7 main_call2.call1.v0 select,
    binary main_v54 main_arg8 main_v55 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    unary main_arg9 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v55 main_v57 main_v58 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v58) main_call3.v0 main_call3.v1 (cmpf .ogt),
    TRef.nullary main_call3.cst_0 (constant S_ .f32 0x00000000#32),
    TRef.unary main_call3.cst_0 main_call3.v2 (broadcastInDim S100000x128 ![] bcast_S_S100000x128),
    TRef.binary (.of main_v58) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x128 ![] bcast_S_S100000x128),
    TRef.ternary main_call3.v3 main_call3.call0.v1 (.of main_v58) main_call3.call0.v2 select,
    TRef.unary main_call3.call0.v2 main_call3.v5 Host.expm1,
    TRef.nullary main_call3.cst_2 (constant S_ .f32 0x3F800000#32),
    TRef.unary main_call3.cst_2 main_call3.v6 (broadcastInDim S100000x128 ![] bcast_S_S100000x128),
    TRef.binary main_call3.v6 main_call3.v5 main_call3.v7 mulf,
    TRef.ternary main_call3.v1 (.of main_v58) main_call3.v7 main_call3.call1.v0 select ]

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub ..⟩

theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

end Cert.ReferenceIdeal.RefOps

end
-- ==== Proof.RefTerms.lean ====
/-
  The reference's three results as terms of its argument arrays: the host operations of its @main composed, with the
  shared mean aggregation kept as one function (Aggr.lean).

  `eluH y` is jax.nn.elu as the reference's module spells it: where 0 < y the value y, elsewhere 1 · expm1 y' with
  y' = 0 where 0 < y and y' = y elsewhere. `dense D A W b` is a product of `A` with `W` (dot dimensions `D`) plus the
  bias `b` along the columns. Each neighbour branch is eluH (dense (meanAggr x g s) W b) with the edge list's rows in
  the two orders; the self branch is eluH (dense (eluH (dense x W1 b1)) W2 b2).
-/
import proofs.«155423_j28054726378292_1_alg».proof.ReferenceIdeal
import proofs.«155423_j28054726378292_1_alg».proof.Proof.Gen.ReferenceIdeal
import proofs.«155423_j28054726378292_1_alg».proof.Proof.Aggr

noncomputable section

namespace Cert.ReferenceIdeal.Terms

open Idealize.ShloMosaic Cert.ReferenceIdeal Cert.ReferenceIdeal.Facts₀

variable {F : FTy → Type} [FloatOps F]

/-- jax.nn.elu on an array of shape `S`, in the reference module's spelling. -/
def eluH {S : Shape} (h : S_.BroadcastsInDim S (![] : Fin 0 → Fin S.rank)) (y : FVec F S .f32) : FVec F S .f32 :=
  select (cmpf .ogt y (broadcastInDim S ![] h (constant S_ .f32 0x00000000#32))) y
    (mulf (broadcastInDim S ![] h (constant S_ .f32 0x3F800000#32))
      (Host.expm1 (select (cmpf .ogt y (broadcastInDim S ![] h (constant S_ .f32 0x00000000#32)))
        (broadcastInDim S ![] h (id (constant S_ .f32 0x00000000#32))) y)))

/-- A 128-column bias along the rows of a [100000, 128] array. -/
def bias128 (b : FVec F S128 .f32) : FVec F S100000x128 .f32 :=
  broadcastInDim S100000x128 ![0, 1] bcast_S1x128_S100000x128_0_1 (broadcastInDim S1x128 ![1] bcast_S128_S1x128_1 b)

/-- A 512-column bias along the rows of a [100000, 512] array. -/
def bias512 (b : FVec F S512 .f32) : FVec F S100000x512 .f32 :=
  broadcastInDim S100000x512 ![0, 1] bcast_S1x512_S100000x512_0_1 (broadcastInDim S1x512 ![1] bcast_S512_S1x512_1 b)

/-- One neighbour branch from aggregated features `A`: elu (A · W + b), 64 → 128 columns. -/
def layer128 (A : FVec F S100000x64 .f32) (W : FVec F S64x128 .f32) (b : FVec F S128 .f32) : FVec F S100000x128 .f32 :=
  eluH bcast_S_S100000x128 (addf (Host.dotGeneral dot_S100000x64_S64x128_S100000x128_1_0_0_1_n_n none A W) (bias128 b))

/-- The self branch's first layer: elu (x · W1 + b1), 64 → 512 columns. -/
def layer512 (x : FVec F S100000x64 .f32) (W1 : FVec F S64x512 .f32) (b1 : FVec F S512 .f32) : FVec F S100000x512 .f32 :=
  eluH bcast_S_S100000x512 (addf (Host.dotGeneral dot_S100000x64_S64x512_S100000x512_1_0_0_1_n_n none x W1) (bias512 b1))

/-- The self branch's second layer: elu (h · W2 + b2), 512 → 128 columns. -/
def layerOut (h : FVec F S100000x512 .f32) (W2 : FVec F S512x128 .f32) (b2 : FVec F S128 .f32) : FVec F S100000x128 .f32 :=
  eluH bcast_S_S100000x128 (addf (Host.dotGeneral dot_S100000x512_S512x128_S100000x128_1_0_0_1_n_n none h W2) (bias128 b2))

/-- Result 0: features gathered at row 0 of the edge list, summed at row 1. -/
def outIn (x : FVec F S100000x64 .f32) (e : IVec S2x1000000 32) (W : FVec F S64x128 .f32) (b : FVec F S128 .f32) : FVec F S100000x128 .f32 :=
  layer128 (Cert.Aggr.meanAggr x (Cert.Aggr.row0 e) (Cert.Aggr.row1 e)) W b

/-- Result 1: features gathered at row 1 of the edge list, summed at row 0. -/
def outOut (x : FVec F S100000x64 .f32) (e : IVec S2x1000000 32) (W : FVec F S64x128 .f32) (b : FVec F S128 .f32) : FVec F S100000x128 .f32 :=
  layer128 (Cert.Aggr.meanAggr x (Cert.Aggr.row1 e) (Cert.Aggr.row0 e)) W b

/-- Result 2: two dense layers on the node's own features. -/
def outSelf (x : FVec F S100000x64 .f32) (W1 : FVec F S64x512 .f32) (b1 : FVec F S512 .f32) (W2 : FVec F S512x128 .f32) (b2 : FVec F S128 .f32) : FVec F S100000x128 .f32 :=
  layerOut (layer512 x W1 b1) W2 b2

end Cert.ReferenceIdeal.Terms

end
-- ==== Proof.RefRun.lean ====
/-
  The reference's run, read back. Its @main is a straight line of host operations (the two printed halves one after
  the other, each call of the module's ELU unfolded into its operations), so every weakly fair execution terminates
  with every buffer at the fold of those operations over the launch contents. Read at the three result buffers the
  fold is: for each neighbour branch, the module's ELU of (mean aggregation · weight + bias), the edge list's rows
  taken in the two orders; for the self branch, two such layers on the node's own features. The argument buffers are
  written by no operation and end as launched.
-/
import proofs.«155423_j28054726378292_1_alg».proof.Proof.RefOps
import proofs.«155423_j28054726378292_1_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

/-- The fold over a concatenation is the second list's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- @main's operations, in order. -/
abbrev ops : List (HloOp τ sig (Elt F)) := ops0 ++ ops1

set_option maxRecDepth 4096 in
/-- The first printed half is the straight line of its operations: the ELU's definition unfolded at its call and the
    record at its fields, then sequencing reassociated. -/
theorem part0_eq (c : Dev nD) : main_part0 (F := F) c = seq ops0 := by
  simp only [main_part0, fn_elu.body, fn_where.body, fn_where_0.body, seq, bind_assoc, pure_bind]
  rfl

set_option maxRecDepth 4096 in
/-- The second printed half likewise (three calls of the ELU, one at 512 columns). -/
theorem part1_eq (c : Dev nD) : main_part1 (F := F) c = seq ops1 := by
  simp only [main_part1, fn_elu.body, fn_elu_1.body, fn_where.body, fn_where_0.body, fn_where_2.body, fn_where_3.body, seq, bind_assoc, pure_bind]

/-- @main is the straight line of all its operations. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, ops1_sub⟩

theorem fresh0 : ∀ op ∈ (ops0 : List (HloOp τ sig (Elt F))), op.fresh = ∅ := by
  intro _ h; (repeat (cases h with | head => rfl | tail _ h => ?_)); exact nomatch h

theorem fresh1 : ∀ op ∈ (ops1 : List (HloOp τ sig (Elt F))), op.fresh = ∅ := by
  intro _ h; (repeat (cases h with | head => rfl | tail _ h => ?_)); exact nomatch h

/-- Every weakly fair execution of @main terminates, and every buffer ends at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => (List.mem_append.mp h).elim (fresh0 op) (fresh1 op))

/-! ## The fold read at the buffers that matter -/

variable (V : Valuation τ sig (Elt F))

/-- After the first half: result 0 is the neighbour branch gathered at row 0 of the edge list and summed at row 1. -/
theorem half0_v26 : after ops0 V (Proc.devRef .tc main_v26)
    = Terms.outIn (V (Proc.devRef .tc main_arg0)) (V (Proc.devRef .tc main_arg1)) (V (Proc.devRef .tc main_arg2)) (V (Proc.devRef .tc main_arg3)) := by
  after_results_simp
  rfl

/-- After the first half: the other branch's product, before its bias (the rows exchanged). -/
theorem half0_v45 : after ops0 V (Proc.devRef .tc main_v45)
    = Host.dotGeneral dot_S100000x64_S64x128_S100000x128_1_0_0_1_n_n none
        (Cert.Aggr.meanAggr (V (Proc.devRef .tc main_arg0)) (Cert.Aggr.row1 (V (Proc.devRef .tc main_arg1))) (Cert.Aggr.row0 (V (Proc.devRef .tc main_arg1))))
        (V (Proc.devRef .tc main_arg4)) := by
  after_results_simp
  rfl

/-- After the first half: that branch's bias along the rows. -/
theorem half0_v47 : after ops0 V (Proc.devRef .tc main_v47) = Terms.bias128 (V (Proc.devRef .tc main_arg5)) := by
  after_results_simp
  rfl

/-- The first half writes no argument buffer. -/
theorem half0_arg (b : Ref sig .tc) (hb : b = main_arg0 ∨ b = main_arg1 ∨ b = main_arg2 ∨ b = main_arg3 ∨ b = main_arg4 ∨ b = main_arg5
      ∨ b = main_arg6 ∨ b = main_arg7 ∨ b = main_arg8 ∨ b = main_arg9) :
    after ops0 V (Proc.devRef .tc b) = V (Proc.devRef .tc b) := by
  rcases hb with rfl | rfl | rfl | rfl | rfl | rfl | rfl | rfl | rfl | rfl <;> after_results_simp

/-- The second half does not write result 0. -/
theorem half1_v26 : after ops1 V (Proc.devRef .tc main_v26) = V (Proc.devRef .tc main_v26) := by
  after_results_simp

/-- The second half finishes result 1 from the product and bias the first half left. -/
theorem half1_v49 : after ops1 V (Proc.devRef .tc main_v49)
    = Terms.eluH bcast_S_S100000x128 (addf (V (Proc.devRef .tc main_v45)) (V (Proc.devRef .tc main_v47))) := by
  after_results_simp
  rfl

/-- The second half computes result 2, the self branch, from the arguments. -/
theorem half1_v59 : after ops1 V (Proc.devRef .tc main_v59)
    = Terms.outSelf (V (Proc.devRef .tc main_arg0)) (V (Proc.devRef .tc main_arg6)) (V (Proc.devRef .tc main_arg7)) (V (Proc.devRef .tc main_arg8)) (V (Proc.devRef .tc main_arg9)) := by
  after_results_simp
  rfl

/-- The second half writes no argument buffer. -/
theorem half1_arg (b : Ref sig .tc) (hb : b = main_arg0 ∨ b = main_arg1 ∨ b = main_arg2 ∨ b = main_arg3 ∨ b = main_arg4 ∨ b = main_arg5
      ∨ b = main_arg6 ∨ b = main_arg7 ∨ b = main_arg8 ∨ b = main_arg9) :
    after ops1 V (Proc.devRef .tc b) = V (Proc.devRef .tc b) := by
  rcases hb with rfl | rfl | rfl | rfl | rfl | rfl | rfl | rfl | rfl | rfl <;> after_results_simp

/-- Both halves leave an argument buffer as it was. -/
theorem all_arg (b : Ref sig .tc) (hb : b = main_arg0 ∨ b = main_arg1 ∨ b = main_arg2 ∨ b = main_arg3 ∨ b = main_arg4 ∨ b = main_arg5
      ∨ b = main_arg6 ∨ b = main_arg7 ∨ b = main_arg8 ∨ b = main_arg9) :
    after ops V (Proc.devRef .tc b) = V (Proc.devRef .tc b) := by
  rw [after_append, half1_arg _ b hb, half0_arg V b hb]

theorem all_v26 : after ops V (Proc.devRef .tc main_v26)
    = Terms.outIn (V (Proc.devRef .tc main_arg0)) (V (Proc.devRef .tc main_arg1)) (V (Proc.devRef .tc main_arg2)) (V (Proc.devRef .tc main_arg3)) := by
  rw [after_append, half1_v26, half0_v26]

theorem all_v49 : after ops V (Proc.devRef .tc main_v49)
    = Terms.outOut (V (Proc.devRef .tc main_arg0)) (V (Proc.devRef .tc main_arg1)) (V (Proc.devRef .tc main_arg4)) (V (Proc.devRef .tc main_arg5)) := by
  rw [after_append, half1_v49, half0_v45, half0_v47]
  rfl

theorem all_v59 : after ops V (Proc.devRef .tc main_v59)
    = Terms.outSelf (V (Proc.devRef .tc main_arg0)) (V (Proc.devRef .tc main_arg6)) (V (Proc.devRef .tc main_arg7)) (V (Proc.devRef .tc main_arg8)) (V (Proc.devRef .tc main_arg9)) := by
  rw [after_append, half1_v59, half0_arg V _ (by simp), half0_arg V _ (by simp), half0_arg V _ (by simp), half0_arg V _ (by simp), half0_arg V _ (by simp)]

/-! ## The run -/

/-- Every weakly fair execution of the reference's @main terminates with its three results at the named terms of the
    launch contents of its arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = Terms.outIn (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v49) = Terms.outOut (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v59) = Terms.outSelf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v26).trans (all_v26 (launchContents m c)),
     (h c main_v49).trans (all_v49 (launchContents m c)),
     (h c main_v59).trans (all_v59 (launchContents m c)),
     (h c main_arg0).trans (all_arg (launchContents m c) main_arg0 (by simp)),
     (h c main_arg1).trans (all_arg (launchContents m c) main_arg1 (by simp)),
     (h c main_arg2).trans (all_arg (launchContents m c) main_arg2 (by simp)),
     (h c main_arg3).trans (all_arg (launchContents m c) main_arg3 (by simp)),
     (h c main_arg4).trans (all_arg (launchContents m c) main_arg4 (by simp)),
     (h c main_arg5).trans (all_arg (launchContents m c) main_arg5 (by simp)),
     (h c main_arg6).trans (all_arg (launchContents m c) main_arg6 (by simp)),
     (h c main_arg7).trans (all_arg (launchContents m c) main_arg7 (by simp)),
     (h c main_arg8).trans (all_arg (launchContents m c) main_arg8 (by simp)),
     (h c main_arg9).trans (all_arg (launchContents m c) main_arg9 (by simp))⟩)
    (run_main m ρ)

end Cert.ReferenceIdeal.RefRun

end
-- ==== Proof.RefValue.lean ====
/-
  The reference's dense layers, read entry by entry. Each layer is elu (A · W + b) on a [100000, K] array A, a [K, N]
  matrix W and a bias b of length N. At the entry (r, j): the host's product is the sum over the K shared columns of
  A (r, k) · W (k, j), because the contraction has one axis and its index is that axis's coordinate; the bias, laid
  first as a one-row array and then repeated down the rows, reads b j; and the module's ELU, spelt with the float
  patterns of 0.0 and 1.0 as "y where 0 < y, else 1 · (exp y' − 1) with y' = 0 where 0 < y and y' = y elsewhere",
  is the one function elu y = (y where 0 < y, else exp y − 1) of the extended reals. So each layer is the
  specification's linElu A W b, and the self branch, two layers composed, is its mlp. The three layers differ only
  in K and N (64 → 128, 64 → 512, 512 → 128), so the entrywise lemmas are stated once over the sizes.
-/
import proofs.«155423_j28054726378292_1_alg».proof.Proof.RefTerms
import proofs.«155423_j28054726378292_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Terms

/-- The module's ELU at one index: the comparison, the product with 1.0 and the shifted exponential are taken
    entrywise, and the two constants are scalars read everywhere. -/
theorem eluH_apply {S : Shape} (h : S_.BroadcastsInDim S (![] : Fin 0 → Fin S.rank)) (y : FVec Ideal S .f32) (i : S.Idx) :
    eluH (F := Ideal) h y i = Cert.Spec.elu (y i) := by
  unfold eluH
  rw [select_apply, cmpf_apply, mulf_apply]
  exact Cert.Spec.elu_host_bits (y i)

/-- A bias vector laid along the rows reads its column's entry: first as a one-row array, then repeated down the rows. -/
theorem biasRows_apply {R N : Nat} (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (hN : N ≠ 1) (b : (⟨1, ![N]⟩ : Shape).Idx → EReal) (r : Fin R) (j : Fin N) :
    broadcastInDim ⟨2, ![R, N]⟩ ![0, 1] h2 (broadcastInDim ⟨2, ![1, N]⟩ ![1] h1 b) (ix2 r j) = b (ix1 j) := by
  refine (broadcastInDim_apply ![0, 1] h2 _ (ix2 r j) (ix2 (0 : Fin 1) j) ?_).trans ?_
  · intro a
    match a with
    | ⟨0, _⟩ => rfl
    | ⟨1, _⟩ => exact (if_neg hN).symm
  · refine broadcastInDim_apply ![1] h1 b (ix2 (0 : Fin 1) j) (ix1 j) ?_
    intro a
    match a with
    | ⟨0, _⟩ => exact (if_neg hN).symm

/-! The operand indices of a plain product [M, K] × [K, N] at the result index j and the contraction index k, axis by axis:
    (j 0, k) on the left, (k, j 1) on the right. -/

theorem plain_lhs_0 {M K N : Nat} (j : (⟨2, ![M, N]⟩ : Shape).Idx) (k : (DotDims.plain M K N).contr.Idx) :
    ((DotDims.plain M K N).lhsIdx j k 0).val = (j 0).val := rfl

theorem plain_lhs_1 {M K N : Nat} (j : (⟨2, ![M, N]⟩ : Shape).Idx) (k : (DotDims.plain M K N).contr.Idx) :
    ((DotDims.plain M K N).lhsIdx j k 1).val = (k ⟨0, Nat.one_pos⟩).val := rfl

theorem plain_rhs_0 {M K N : Nat} (j : (⟨2, ![M, N]⟩ : Shape).Idx) (k : (DotDims.plain M K N).contr.Idx) :
    ((DotDims.plain M K N).rhsIdx j k 0).val = (k ⟨0, Nat.one_pos⟩).val := rfl

theorem plain_rhs_1 {M K N : Nat} (j : (⟨2, ![M, N]⟩ : Shape).Idx) (k : (DotDims.plain M K N).contr.Idx) :
    ((DotDims.plain M K N).rhsIdx j k 1).val = (j 1).val := rfl

/-- A plain matrix product on the host, read at (r, j): the sum over the shared axis of the entries' products. The
    contraction index has one coordinate, so the sum over it is a sum over Fin K. -/
theorem plainDot_apply {M K N : Nat} (D : DotDims ⟨2, ![M, K]⟩ ⟨2, ![K, N]⟩ ⟨2, ![M, N]⟩) (hD : D = DotDims.plain M K N)
    (A : FVec Ideal ⟨2, ![M, K]⟩ .f32) (W : FVec Ideal ⟨2, ![K, N]⟩ .f32) (r : Fin M) (j : Fin N) :
    Host.dotGeneral (F := Ideal) D none A W (ix2 r j) = ∑ k : Fin K, A (ix2 r k) * W (ix2 k j) := by
  subst hD
  show FloatOps.dotGeneral _ none _ A W (ix2 r j) = _
  rw [Ideal.dotGeneral_apply, ← Equiv.sum_comp (contrEquiv1 (DotDims.plain M K N) K rfl rfl).symm]
  refine Finset.sum_congr rfl fun c _ => ?_
  have hc := contrEquiv1_symm_val (DotDims.plain M K N) K rfl rfl c
  have hl : (DotDims.plain M K N).lhsIdx (ix2 r j) ((contrEquiv1 (DotDims.plain M K N) K rfl rfl).symm c) = ix2 r c := by
    funext a
    apply Fin.ext
    match a with
    | ⟨0, _⟩ => exact plain_lhs_0 _ _
    | ⟨1, _⟩ => exact (plain_lhs_1 _ _).trans hc
  have hr : (DotDims.plain M K N).rhsIdx (ix2 r j) ((contrEquiv1 (DotDims.plain M K N) K rfl rfl).symm c) = ix2 c j := by
    funext a
    apply Fin.ext
    match a with
    | ⟨0, _⟩ => exact (plain_rhs_0 _ _).trans hc
    | ⟨1, _⟩ => exact plain_rhs_1 _ _
  rw [hl, hr]

/-- The reference's neighbour-branch layer, read index by index: the host's product is the sum over the 64 input
    columns, the bias is read at the column, and the module's ELU is the one function `Spec.elu`. -/
theorem layer128_eq (A : FVec Ideal S100000x64 .f32) (W : FVec Ideal S64x128 .f32) (b : FVec Ideal S128 .f32) :
    layer128 A W b = Cert.Spec.linElu (R := 100000) (K := 64) (N := 128) A W b := by
  funext i
  obtain ⟨r, j, rfl⟩ : ∃ (r : Fin 100000) (j : Fin 128), i = ix2 r j := ⟨i 0, i 1, eq_ix2 i⟩
  unfold layer128 bias128
  rw [eluH_apply, addf_apply, Cert.Spec.linElu_apply]
  refine congrArg Cert.Spec.elu ?_
  refine congr (congrArg _ (plainDot_apply _ rfl A W r j)) ?_
  exact biasRows_apply _ _ (by decide) b r j

/-- The self branch's first layer, 64 → 512 columns. -/
theorem layer512_eq (x : FVec Ideal S100000x64 .f32) (W1 : FVec Ideal S64x512 .f32) (b1 : FVec Ideal S512 .f32) :
    layer512 x W1 b1 = Cert.Spec.linElu (R := 100000) (K := 64) (N := 512) x W1 b1 := by
  funext i
  obtain ⟨r, j, rfl⟩ : ∃ (r : Fin 100000) (j : Fin 512), i = ix2 r j := ⟨i 0, i 1, eq_ix2 i⟩
  unfold layer512 bias512
  rw [eluH_apply, addf_apply, Cert.Spec.linElu_apply]
  refine congrArg Cert.Spec.elu ?_
  refine congr (congrArg _ (plainDot_apply _ rfl x W1 r j)) ?_
  exact biasRows_apply _ _ (by decide) b1 r j

/-- The self branch's second layer, 512 → 128 columns. -/
theorem layerOut_eq (h : FVec Ideal S100000x512 .f32) (W2 : FVec Ideal S512x128 .f32) (b2 : FVec Ideal S128 .f32) :
    layerOut h W2 b2 = Cert.Spec.linElu (R := 100000) (K := 512) (N := 128) h W2 b2 := by
  funext i
  obtain ⟨r, j, rfl⟩ : ∃ (r : Fin 100000) (j : Fin 128), i = ix2 r j := ⟨i 0, i 1, eq_ix2 i⟩
  unfold layerOut bias128
  rw [eluH_apply, addf_apply, Cert.Spec.linElu_apply]
  refine congrArg Cert.Spec.elu ?_
  refine congr (congrArg _ (plainDot_apply _ rfl h W2 r j)) ?_
  exact biasRows_apply _ _ (by decide) b2 r j

/-- The self branch: two layers. -/
theorem outSelf_eq (x : FVec Ideal S100000x64 .f32) (W1 : FVec Ideal S64x512 .f32) (b1 : FVec Ideal S512 .f32)
    (W2 : FVec Ideal S512x128 .f32) (b2 : FVec Ideal S128 .f32) :
    outSelf x W1 b1 W2 b2 = Cert.Spec.mlp (R := 100000) (K := 64) (H := 512) (N := 128) x W1 b1 W2 b2 := by
  unfold outSelf Cert.Spec.mlp
  rw [layer512_eq, layerOut_eq]

end Cert.ReferenceIdeal.RefValue

end
-- ==== Proof.lean ====
/-
  The certificate: a three-branch graph-convolution layer computed by three row-tiled kernels equals its jnp
  reference over the extended reals.

  Both programs first mean-aggregate the node features over the edge list with the same host operations, once per
  direction; the certificate names that computation as one function (Aggr.lean) and never opens it. What follows it
  is, per branch, a dense layer with ELU, and for the node's own features two such layers (Spec.lean):
      out (r, j) = elu (∑ k, A (r, k) · W (k, j) + b j),   elu y = y for 0 < y and e^y − 1 otherwise.
  The kernels compute this tile by tile (rows 2000·t … 2000·t + 1999 at grid point t), casting their operands to a
  narrower float format first, which at the extended reals changes nothing, and accumulating the product from zero;
  the fifty tiles cover the array, so each result array is the specification's function of the arrays the region read
  (Region0 … Region2, read back through the run in KValue.lean). The reference computes the same products with
  whole-array host operations and spells ELU's other branch as 1 · expm1 y' with y' = 0 where 0 < y; at the extended
  reals expm1 y = e^y − 1 and 1 · z = z, so that is the same function (RefValue.lean over the run in RefRun.lean).
  No step uses a law that fails at an infinity, so the precondition that the inputs are finite is not opened.
  The kernel's idealization rewrote no operation, so there is nothing to preserve beyond the program's own text.
-/
import proofs.«155423_j28054726378292_1_alg».proof.Defs
import proofs.«155423_j28054726378292_1_alg».proof.Proof.Gen.Kernel
import proofs.«155423_j28054726378292_1_alg».proof.Proof.Gen.Kernel.Frame
import proofs.«155423_j28054726378292_1_alg».proof.Proof.Gen.KernelIdeal
import proofs.«155423_j28054726378292_1_alg».proof.Proof.Gen.KernelIdeal.Frame
import proofs.«155423_j28054726378292_1_alg».proof.Proof.Gen.ReferenceIdeal
import proofs.«155423_j28054726378292_1_alg».proof.Proof.Gen.Pre_finite_inputs
import proofs.«155423_j28054726378292_1_alg».proof.Proof.KValue
import proofs.«155423_j28054726378292_1_alg».proof.Proof.RefRun
import proofs.«155423_j28054726378292_1_alg».proof.Proof.RefValue
import Idealize.ShloMosaic.Adequacy
import Idealize.ShloMosaic.Init

noncomputable section

namespace Cert.Proof

open Idealize.ShloMosaic Idealize.SL.Sem

/-- The word-level kernel runs, faults nowhere and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations none of which writes an argument. -/
theorem frame_referenceIdeal : Cert.frame_ReferenceIdeal := fun m ρ _ =>
  (θ_run Cert.ReferenceIdeal.defs _ _).mono (fun _ h c => (h c).2.2.2) (Cert.ReferenceIdeal.RefRun.run (F := Ideal) m ρ)

/-- Run from memories that agree on the arguments, the two programs end with the same three arrays: each is the
    specification's function of the arguments — the kernel's by its tiles, the reference's by its host operations
    read index by index — with the shared aggregation as one term on both sides. -/
theorem algebraic : Cert.algebraic_KernelIdeal_ReferenceIdeal := by
  intro m ρ m' ρ' _ hagree
  refine ⟨_, _, _, Cert.KernelIdeal.KValue.run m ρ, ?_⟩
  refine (θ_run Cert.ReferenceIdeal.defs _ _).mono (fun _ h c => ?_) (Cert.ReferenceIdeal.RefRun.run (F := Ideal) m' ρ')
  obtain ⟨h26, h49, h59, hargs⟩ := h c
  obtain ⟨a0, a1, a2, a3, a4, a5, a6, a7, a8, a9⟩ := hagree c
  refine ⟨?_, ?_, ?_, hargs⟩
  · rw [h26, a0, a1, a2, a3]
    exact Cert.ReferenceIdeal.RefValue.layer128_eq _ _ _
  · rw [h49, a0, a1, a4, a5]
    exact Cert.ReferenceIdeal.RefValue.layer128_eq _ _ _
  · rw [h59, a0, a6, a7, a8, a9]
    exact Cert.ReferenceIdeal.RefValue.outSelf_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
